-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x25x512x512 : Shape := ⟨4, ![16, 25, 512, 512]⟩
abbrev S16x1x512x512 : Shape := ⟨4, ![16, 1, 512, 512]⟩
abbrev S_ : Shape := ⟨0, ![]⟩

class Facts : Prop where
  bcast_S_S16x25x512x512 : S_.BroadcastsInDim S16x25x512x512 (![] : Fin 0 → Fin S16x25x512x512.rank)
  reducesTo_S16x25x512x512_S_d0_1_2_3 : S16x25x512x512.ReducesTo [0, 1, 2, 3] S_
  h_S_ : 0 < S_.numel
  bcast_S_S16x1x512x512 : S_.BroadcastsInDim S16x1x512x512 (![] : Fin 0 → Fin S16x1x512x512.rank)
  reducesTo_S16x1x512x512_S_d0_1_2_3 : S16x1x512x512.ReducesTo [0, 1, 2, 3] S_

variable [Facts]

def fn {F : FTy → Type} [FloatOps F] (main_arg0 : FVec F S16x25x512x512 .f32) (main_arg1 : FVec F S16x1x512x512 .f32) : IVec S_ 1 :=
  let main_v0 : FVec F S16x25x512x512 .f32 := Host.absf main_arg0
  let main_cst : FVec F S_ .f32 := constant S_ .f32 0x7F800000#32
  let main_v1 : FVec F S16x25x512x512 .f32 := broadcastInDim S16x25x512x512 ![] bcast_S_S16x25x512x512 main_cst
  let main_v2 : IVec S16x25x512x512 1 := cmpf .olt main_v0 main_v1
  let main_c : IVec S_ 1 := constantI S_ 1 1#1
  let main_v3 : IVec S_ 1 := (fun x v => Host.reduce IntOp.andi x v reducesTo_S16x25x512x512_S_d0_1_2_3 h_S_) main_v2 main_c
  let main_v4 : FVec F S16x1x512x512 .f32 := Host.absf main_arg1
  let main_cst_0 : FVec F S_ .f32 := constant S_ .f32 0x7F800000#32
  let main_v5 : FVec F S16x1x512x512 .f32 := broadcastInDim S16x1x512x512 ![] bcast_S_S16x1x512x512 main_cst_0
  let main_v6 : IVec S16x1x512x512 1 := cmpf .olt main_v4 main_v5
  let main_c_1 : IVec S_ 1 := constantI S_ 1 1#1
  let main_v7 : IVec S_ 1 := (fun x v => Host.reduce IntOp.andi x v reducesTo_S16x1x512x512_S_d0_1_2_3 h_S_) main_v6 main_c_1
  let main_v8 : IVec S_ 1 := andi main_v3 main_v7
  main_v8
-- ==== Kernel.lean ====
abbrev S16x25x512x512 : Shape := ⟨4, ![16, 25, 512, 512]⟩
abbrev S16x1x512x512 : Shape := ⟨4, ![16, 1, 512, 512]⟩
abbrev S16x512x512 : Shape := ⟨3, ![16, 512, 512]⟩
abbrev S_ : Shape := ⟨0, ![]⟩
abbrev S16x516x516 : Shape := ⟨3, ![16, 516, 516]⟩
abbrev S1x25x256x512 : Shape := ⟨4, ![1, 25, 256, 512]⟩
abbrev S1x516x516 : Shape := ⟨3, ![1, 516, 516]⟩
abbrev S1x256x512 : Shape := ⟨3, ![1, 256, 512]⟩
abbrev S1x260x516 : Shape := ⟨3, ![1, 260, 516]⟩
abbrev S260x516 : Shape := ⟨2, ![260, 516]⟩
abbrev S256x512 : Shape := ⟨2, ![256, 512]⟩
abbrev S1x1x256x512 : Shape := ⟨4, ![1, 1, 256, 512]⟩
abbrev S1x16x512x512 : Shape := ⟨4, ![1, 16, 512, 512]⟩

abbrev nBuf : Space → Nat
  | .hbm => 8
  | .vmem => 6
  | .smem => 0
  | _ => 0

abbrev bufTy : (tb : Table) → Fin (tcTables nBuf tb) → BufTy
  | .hbm, ⟨0, _⟩ => ⟨S16x25x512x512, .f32⟩
  | .hbm, ⟨1, _⟩ => ⟨S16x1x512x512, .f32⟩
  | .hbm, ⟨2, _⟩ => ⟨S16x512x512, .f32⟩
  | .hbm, ⟨3, _⟩ => ⟨S_, .i32⟩
  | .hbm, ⟨4, _⟩ => ⟨S_, .f32⟩
  | .hbm, ⟨5, _⟩ => ⟨S16x516x516, .f32⟩
  | .hbm, ⟨6, _⟩ => ⟨S16x512x512, .f32⟩
  | .hbm, ⟨7, _⟩ => ⟨S1x16x512x512, .f32⟩
  | .local _ .vmem, ⟨0, _⟩ => ⟨S1x25x256x512, .f32⟩
  | .local _ .vmem, ⟨1, _⟩ => ⟨S1x25x256x512, .f32⟩
  | .local _ .vmem, ⟨2, _⟩ => ⟨S1x516x516, .f32⟩
  | .local _ .vmem, ⟨3, _⟩ => ⟨S1x516x516, .f32⟩
  | .local _ .vmem, ⟨4, _⟩ => ⟨S1x256x512, .f32⟩
  | .local _ .vmem, ⟨5, _⟩ => ⟨S1x256x512, .f32⟩
  | _, _ => ⟨S16x25x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 3 → Nat :=
  let c0 : Index := 0#32
  let arg1 : BitVec 32 := BitVec.ofNat 32 (i 1).val
  let c256_i32 : BitVec 32 := 256#32
  let v0 : BitVec 32 := Scalar.muli arg1 c256_i32
  let v1 : BitVec 32 := v0
  let v2 : Index := Scalar.indexCast v1
  let c0_0 : Index := 0#32
  ![0, v2.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x25x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x516x516 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x1x512x512_S16x512x512 : S16x1x512x512.ShapeCasts S16x512x512
  pads_S16x512x512_S16x516x516_000_220_220 : S16x512x512.Pads (![0, 2, 2] : Fin 3 → Nat) ![0, 2, 2] ![0, 0, 0] S16x516x516
  h_S_ : 0 < S_.numel
  h_S1x260x516 : 0 < S1x260x516.numel
  shapeCasts_S1x260x516_S260x516 : S1x260x516.ShapeCasts S260x516
  inb_S1x25x256x512_S1x1x256x512_0_0_0_0 : ∀ a, (![0, 0, 0, 0] : Fin 4 → Nat) a + S1x1x256x512.size a ≤ S1x25x256x512.size a
  h_S1x1x256x512 : 0 < S1x1x256x512.numel
  shapeCasts_S1x1x256x512_S256x512 : S1x1x256x512.ShapeCasts S256x512
  slices_S260x516_o0_0_S256x512 : S260x516.Slices ![0, 0] S256x512
  inb_S1x25x256x512_S1x1x256x512_0_1_0_0 : ∀ a, (![0, 1, 0, 0] : Fin 4 → Nat) a + S1x1x256x512.size a ≤ S1x25x256x512.size a
  slices_S260x516_o1_0_S256x512 : S260x516.Slices ![1, 0] S256x512
  inb_S1x25x256x512_S1x1x256x512_0_2_0_0 : ∀ a, (![0, 2, 0, 0] : Fin 4 → Nat) a + S1x1x256x512.size a ≤ S1x25x256x512.size a
  slices_S260x516_o2_0_S256x512 : S260x516.Slices ![2, 0] S256x512
  inb_S1x25x256x512_S1x1x256x512_0_3_0_0 : ∀ a, (![0, 3, 0, 0] : Fin 4 → Nat) a + S1x1x256x512.size a ≤ S1x25x256x512.size a
  slices_S260x516_o3_0_S256x512 : S260x516.Slices ![3, 0] S256x512
  inb_S1x25x256x512_S1x1x256x512_0_4_0_0 : ∀ a, (![0, 4, 0, 0] : Fin 4 → Nat) a + S1x1x256x512.size a ≤ S1x25x256x512.size a
  slices_S260x516_o4_0_S256x512 : S260x516.Slices ![4, 0] S256x512
  inb_S1x25x256x512_S1x1x256x512_0_5_0_0 : ∀ a, (![0, 5, 0, 0] : Fin 4 → Nat) a + S1x1x256x512.size a ≤ S1x25x256x512.size a
  slices_S260x516_o0_1_S256x512 : S260x516.Slices ![0, 1] S256x512
  inb_S1x25x256x512_S1x1x256x512_0_6_0_0 : ∀ a, (![0, 6, 0, 0] : Fin 4 → Nat) a + S1x1x256x512.size a ≤ S1x25x256x512.size a
  slices_S260x516_o1_1_S256x512 : S260x516.Slices ![1, 1] S256x512
  inb_S1x25x256x512_S1x1x256x512_0_7_0_0 : ∀ a, (![0, 7, 0, 0] : Fin 4 → Nat) a + S1x1x256x512.size a ≤ S1x25x256x512.size a
  slices_S260x516_o2_1_S256x512 : S260x516.Slices ![2, 1] S256x512
  inb_S1x25x256x512_S1x1x256x512_0_8_0_0 : ∀ a, (![0, 8, 0, 0] : Fin 4 → Nat) a + S1x1x256x512.size a ≤ S1x25x256x512.size a
  slices_S260x516_o3_1_S256x512 : S260x516.Slices ![3, 1] S256x512
  inb_S1x25x256x512_S1x1x256x512_0_9_0_0 : ∀ a, (![0, 9, 0, 0] : Fin 4 → Nat) a + S1x1x256x512.size a ≤ S1x25x256x512.size a
  slices_S260x516_o4_1_S256x512 : S260x516.Slices ![4, 1] S256x512
  inb_S1x25x256x512_S1x1x256x512_0_10_0_0 : ∀ a, (![0, 10, 0, 0] : Fin 4 → Nat) a + S1x1x256x512.size a ≤ S1x25x256x512.size a
  slices_S260x516_o0_2_S256x512 : S260x516.Slices ![0, 2] S256x512
  inb_S1x25x256x512_S1x1x256x512_0_11_0_0 : ∀ a, (![0, 11, 0, 0] : Fin 4 → Nat) a + S1x1x256x512.size a ≤ S1x25x256x512.size a
  slices_S260x516_o1_2_S256x512 : S260x516.Slices ![1, 2] S256x512
  inb_S1x25x256x512_S1x1x256x512_0_12_0_0 : ∀ a, (![0, 12, 0, 0] : Fin 4 → Nat) a + S1x1x256x512.size a ≤ S1x25x256x512.size a
  slices_S260x516_o2_2_S256x512 : S260x516.Slices ![2, 2] S256x512
  inb_S1x25x256x512_S1x1x256x512_0_13_0_0 : ∀ a, (![0, 13, 0, 0] : Fin 4 → Nat) a + S1x1x256x512.size a ≤ S1x25x256x512.size a
  slices_S260x516_o3_2_S256x512 : S260x516.Slices ![3, 2] S256x512
  inb_S1x25x256x512_S1x1x256x512_0_14_0_0 : ∀ a, (![0, 14, 0, 0] : Fin 4 → Nat) a + S1x1x256x512.size a ≤ S1x25x256x512.size a
  slices_S260x516_o4_2_S256x512 : S260x516.Slices ![4, 2] S256x512
  inb_S1x25x256x512_S1x1x256x512_0_15_0_0 : ∀ a, (![0, 15, 0, 0] : Fin 4 → Nat) a + S1x1x256x512.size a ≤ S1x25x256x512.size a
  slices_S260x516_o0_3_S256x512 : S260x516.Slices ![0, 3] S256x512
  inb_S1x25x256x512_S1x1x256x512_0_16_0_0 : ∀ a, (![0, 16, 0, 0] : Fin 4 → Nat) a + S1x1x256x512.size a ≤ S1x25x256x512.size a
  slices_S260x516_o1_3_S256x512 : S260x516.Slices ![1, 3] S256x512
  inb_S1x25x256x512_S1x1x256x512_0_17_0_0 : ∀ a, (![0, 17, 0, 0] : Fin 4 → Nat) a + S1x1x256x512.size a ≤ S1x25x256x512.size a
  slices_S260x516_o2_3_S256x512 : S260x516.Slices ![2, 3] S256x512
  inb_S1x25x256x512_S1x1x256x512_0_18_0_0 : ∀ a, (![0, 18, 0, 0] : Fin 4 → Nat) a + S1x1x256x512.size a ≤ S1x25x256x512.size a
  slices_S260x516_o3_3_S256x512 : S260x516.Slices ![3, 3] S256x512
  inb_S1x25x256x512_S1x1x256x512_0_19_0_0 : ∀ a, (![0, 19, 0, 0] : Fin 4 → Nat) a + S1x1x256x512.size a ≤ S1x25x256x512.size a
  slices_S260x516_o4_3_S256x512 : S260x516.Slices ![4, 3] S256x512
  inb_S1x25x256x512_S1x1x256x512_0_20_0_0 : ∀ a, (![0, 20, 0, 0] : Fin 4 → Nat) a + S1x1x256x512.size a ≤ S1x25x256x512.size a
  slices_S260x516_o0_4_S256x512 : S260x516.Slices ![0, 4] S256x512
  inb_S1x25x256x512_S1x1x256x512_0_21_0_0 : ∀ a, (![0, 21, 0, 0] : Fin 4 → Nat) a + S1x1x256x512.size a ≤ S1x25x256x512.size a
  slices_S260x516_o1_4_S256x512 : S260x516.Slices ![1, 4] S256x512
  inb_S1x25x256x512_S1x1x256x512_0_22_0_0 : ∀ a, (![0, 22, 0, 0] : Fin 4 → Nat) a + S1x1x256x512.size a ≤ S1x25x256x512.size a
  slices_S260x516_o2_4_S256x512 : S260x516.Slices ![2, 4] S256x512
  inb_S1x25x256x512_S1x1x256x512_0_23_0_0 : ∀ a, (![0, 23, 0, 0] : Fin 4 → Nat) a + S1x1x256x512.size a ≤ S1x25x256x512.size a
  slices_S260x516_o3_4_S256x512 : S260x516.Slices ![3, 4] S256x512
  inb_S1x25x256x512_S1x1x256x512_0_24_0_0 : ∀ a, (![0, 24, 0, 0] : Fin 4 → Nat) a + S1x1x256x512.size a ≤ S1x25x256x512.size a
  slices_S260x516_o4_4_S256x512 : S260x516.Slices ![4, 4] S256x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  bcast_S16x512x512_S1x16x512x512_1_2_3 : S16x512x512.BroadcastsInDim S1x16x512x512 (![1, 2, 3] : Fin 3 → Fin S1x16x512x512.rank)
  hrank0 : 0 < grid0.rank
  k0_mult1_dvd : ∀ i : grid0.Coords, 256 ∣ (k0_mult1 i).toNat
  k0_off1_inb : ∀ i : grid0.Coords, ∀ a, (k0_off1 i) a + S1x260x516.size a ≤ S1x516x516.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x25x256x512.size a ≤ S16x25x512x512.size a
  hwx0_0 : ∀ i : grid0.Coords, EltTy.bits .f32 = 32 ∨ (Rect.block (s := S16x25x512x512) S1x25x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x516x516.size a ≤ S16x516x516.size a
  hwx0_1 : ∀ i : grid0.Coords, EltTy.bits .f32 = 32 ∨ (Rect.block (s := S16x516x516) S1x516x516.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S16x512x512.size a
  hwx0_2 : ∀ i : grid0.Coords, EltTy.bits .f32 = 32 ∨ (Rect.block (s := S16x512x512) S1x256x512.size (cc0_transform_2 i) (hinb0_2 i)).WholeWords (EltTy.packing .f32)

variable [Facts₀]

abbrev win0_0 : Pipeline.Window sig grid0 :=
  Pipeline.Window.ofSpec (Memref.whole main_arg0) S1x25x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x516x516.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x25x512x512 : Shape := ⟨4, ![16, 25, 512, 512]⟩
abbrev S16x1x512x512 : Shape := ⟨4, ![16, 1, 512, 512]⟩
abbrev S16x512x512 : Shape := ⟨3, ![16, 512, 512]⟩
abbrev S_ : Shape := ⟨0, ![]⟩
abbrev S16x516x516 : Shape := ⟨3, ![16, 516, 516]⟩
abbrev S1x16x512x512 : Shape := ⟨4, ![1, 16, 512, 512]⟩

abbrev nBuf : Space → Nat
  | .hbm => 134
  | .vmem => 0
  | .smem => 0
  | _ => 0

abbrev hbmTy0_0 (i : Nat) : BufTy := match i % 128 with
  | 0 => ⟨S16x25x512x512, .f32⟩
  | 1 => ⟨S16x1x512x512, .f32⟩
  | 2 => ⟨S16x512x512, .f32⟩
  | 3 => ⟨S_, .i32⟩
  | 4 => ⟨S_, .f32⟩
  | 5 => ⟨S16x516x516, .f32⟩
  | 6 => ⟨S_, .f32⟩
  | 7 => ⟨S16x512x512, .f32⟩
  | 8 => ⟨S16x512x512, .f32⟩
  | 9 => ⟨S16x1x512x512, .f32⟩
  | 10 => ⟨S16x512x512, .f32⟩
  | 11 => ⟨S16x512x512, .f32⟩
  | 12 => ⟨S16x512x512, .f32⟩
  | 13 => ⟨S16x512x512, .f32⟩
  | 14 => ⟨S16x1x512x512, .f32⟩
  | 15 => ⟨S16x512x512, .f32⟩
  | 16 => ⟨S16x512x512, .f32⟩
  | 17 => ⟨S16x512x512, .f32⟩
  | 18 => ⟨S16x512x512, .f32⟩
  | 19 => ⟨S16x1x512x512, .f32⟩
  | 20 => ⟨S16x512x512, .f32⟩
  | 21 => ⟨S16x512x512, .f32⟩
  | 22 => ⟨S16x512x512, .f32⟩
  | 23 => ⟨S16x512x512, .f32⟩
  | 24 => ⟨S16x1x512x512, .f32⟩
  | 25 => ⟨S16x512x512, .f32⟩
  | 26 => ⟨S16x512x512, .f32⟩
  | 27 => ⟨S16x512x512, .f32⟩
  | 28 => ⟨S16x512x512, .f32⟩
  | 29 => ⟨S16x1x512x512, .f32⟩
  | 30 => ⟨S16x512x512, .f32⟩
  | 31 => ⟨S16x512x512, .f32⟩
  | 32 => ⟨S16x512x512, .f32⟩
  | 33 => ⟨S16x512x512, .f32⟩
  | 34 => ⟨S16x1x512x512, .f32⟩
  | 35 => ⟨S16x512x512, .f32⟩
  | 36 => ⟨S16x512x512, .f32⟩
  | 37 => ⟨S16x512x512, .f32⟩
  | 38 => ⟨S16x512x512, .f32⟩
  | 39 => ⟨S16x1x512x512, .f32⟩
  | 40 => ⟨S16x512x512, .f32⟩
  | 41 => ⟨S16x512x512, .f32⟩
  | 42 => ⟨S16x512x512, .f32⟩
  | 43 => ⟨S16x512x512, .f32⟩
  | 44 => ⟨S16x1x512x512, .f32⟩
  | 45 => ⟨S16x512x512, .f32⟩
  | 46 => ⟨S16x512x512, .f32⟩
  | 47 => ⟨S16x512x512, .f32⟩
  | 48 => ⟨S16x512x512, .f32⟩
  | 49 => ⟨S16x1x512x512, .f32⟩
  | 50 => ⟨S16x512x512, .f32⟩
  | 51 => ⟨S16x512x512, .f32⟩
  | 52 => ⟨S16x512x512, .f32⟩
  | 53 => ⟨S16x512x512, .f32⟩
  | 54 => ⟨S16x1x512x512, .f32⟩
  | 55 => ⟨S16x512x512, .f32⟩
  | 56 => ⟨S16x512x512, .f32⟩
  | 57 => ⟨S16x512x512, .f32⟩
  | 58 => ⟨S16x512x512, .f32⟩
  | 59 => ⟨S16x1x512x512, .f32⟩
  | 60 => ⟨S16x512x512, .f32⟩
  | 61 => ⟨S16x512x512, .f32⟩
  | 62 => ⟨S16x512x512, .f32⟩
  | 63 => ⟨S16x512x512, .f32⟩
  | 64 => ⟨S16x1x512x512, .f32⟩
  | 65 => ⟨S16x512x512, .f32⟩
  | 66 => ⟨S16x512x512, .f32⟩
  | 67 => ⟨S16x512x512, .f32⟩
  | 68 => ⟨S16x512x512, .f32⟩
  | 69 => ⟨S16x1x512x512, .f32⟩
  | 70 => ⟨S16x512x512, .f32⟩
  | 71 => ⟨S16x512x512, .f32⟩
  | 72 => ⟨S16x512x512, .f32⟩
  | 73 => ⟨S16x512x512, .f32⟩
  | 74 => ⟨S16x1x512x512, .f32⟩
  | 75 => ⟨S16x512x512, .f32⟩
  | 76 => ⟨S16x512x512, .f32⟩
  | 77 => ⟨S16x512x512, .f32⟩
  | 78 => ⟨S16x512x512, .f32⟩
  | 79 => ⟨S16x1x512x512, .f32⟩
  | 80 => ⟨S16x512x512, .f32⟩
  | 81 => ⟨S16x512x512, .f32⟩
  | 82 => ⟨S16x512x512, .f32⟩
  | 83 => ⟨S16x512x512, .f32⟩
  | 84 => ⟨S16x1x512x512, .f32⟩
  | 85 => ⟨S16x512x512, .f32⟩
  | 86 => ⟨S16x512x512, .f32⟩
  | 87 => ⟨S16x512x512, .f32⟩
  | 88 => ⟨S16x512x512, .f32⟩
  | 89 => ⟨S16x1x512x512, .f32⟩
  | 90 => ⟨S16x512x512, .f32⟩
  | 91 => ⟨S16x512x512, .f32⟩
  | 92 => ⟨S16x512x512, .f32⟩
  | 93 => ⟨S16x512x512, .f32⟩
  | 94 => ⟨S16x1x512x512, .f32⟩
  | 95 => ⟨S16x512x512, .f32⟩
  | 96 => ⟨S16x512x512, .f32⟩
  | 97 => ⟨S16x512x512, .f32⟩
  | 98 => ⟨S16x512x512, .f32⟩
  | 99 => ⟨S16x1x512x512, .f32⟩
  | 100 => ⟨S16x512x512, .f32⟩
  | 101 => ⟨S16x512x512, .f32⟩
  | 102 => ⟨S16x512x512, .f32⟩
  | 103 => ⟨S16x512x512, .f32⟩
  | 104 => ⟨S16x1x512x512, .f32⟩
  | 105 => ⟨S16x512x512, .f32⟩
  | 106 => ⟨S16x512x512, .f32⟩
  | 107 => ⟨S16x512x512, .f32⟩
  | 108 => ⟨S16x512x512, .f32⟩
  | 109 => ⟨S16x1x512x512, .f32⟩
  | 110 => ⟨S16x512x512, .f32⟩
  | 111 => ⟨S16x512x512, .f32⟩
  | 112 => ⟨S16x512x512, .f32⟩
  | 113 => ⟨S16x512x512, .f32⟩
  | 114 => ⟨S16x1x512x512, .f32⟩
  | 115 => ⟨S16x512x512, .f32⟩
  | 116 => ⟨S16x512x512, .f32⟩
  | 117 => ⟨S16x512x512, .f32⟩
  | 118 => ⟨S16x512x512, .f32⟩
  | 119 => ⟨S16x1x512x512, .f32⟩
  | 120 => ⟨S16x512x512, .f32⟩
  | 121 => ⟨S16x512x512, .f32⟩
  | 122 => ⟨S16x512x512, .f32⟩
  | 123 => ⟨S16x512x512, .f32⟩
  | 124 => ⟨S16x1x512x512, .f32⟩
  | 125 => ⟨S16x512x512, .f32⟩
  | 126 => ⟨S16x512x512, .f32⟩
  | 127 => ⟨S16x512x512, .f32⟩
  | _ => ⟨S16x25x512x512, .f32⟩

abbrev hbmTy0_1 (i : Nat) : BufTy := match i % 128 with
  | 0 => ⟨S16x512x512, .f32⟩
  | 1 => ⟨S16x1x512x512, .f32⟩
  | 2 => ⟨S16x512x512, .f32⟩
  | 3 => ⟨S16x512x512, .f32⟩
  | 4 => ⟨S16x512x512, .f32⟩
  | 5 => ⟨S1x16x512x512, .f32⟩
  | _ => ⟨S16x25x512x512, .f32⟩

abbrev hbmTy (i : Nat) : BufTy := match i / 128 with
  | 0 => hbmTy0_0 i
  | 1 => hbmTy0_1 i
  | _ => ⟨S16x25x512x512, .f32⟩

abbrev bufTy : (tb : Table) → Fin (tcTables nBuf tb) → BufTy
  | .hbm, ⟨i, _⟩ => hbmTy i
  | _, _ => ⟨S16x25x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩

abbrev nD : Nat := 1
abbrev τ : Topo := Topo.v7x

variable {F : FTy → Type} [FloatOps F]

class Facts₀ : Prop where
  shapeCasts_S16x1x512x512_S16x512x512 : S16x1x512x512.ShapeCasts S16x512x512
  pads_S16x512x512_S16x516x516_000_220_220 : S16x512x512.Pads (![0, 2, 2] : Fin 3 → Nat) ![0, 2, 2] ![0, 0, 0] S16x516x516
  h_S_ : 0 < S_.numel
  bcast_S_S16x512x512 : S_.BroadcastsInDim S16x512x512 (![] : Fin 0 → Fin S16x512x512.rank)
  slices_S16x516x516_S16x512x512_0_0_0 : S16x516x516.Slices ![0, 0, 0] S16x512x512
  slices_S16x25x512x512_S16x1x512x512_0_0_0_0 : S16x25x512x512.Slices ![0, 0, 0, 0] S16x1x512x512
  slices_S16x516x516_S16x512x512_0_1_0 : S16x516x516.Slices ![0, 1, 0] S16x512x512
  slices_S16x25x512x512_S16x1x512x512_0_1_0_0 : S16x25x512x512.Slices ![0, 1, 0, 0] S16x1x512x512
  slices_S16x516x516_S16x512x512_0_2_0 : S16x516x516.Slices ![0, 2, 0] S16x512x512
  slices_S16x25x512x512_S16x1x512x512_0_2_0_0 : S16x25x512x512.Slices ![0, 2, 0, 0] S16x1x512x512
  slices_S16x516x516_S16x512x512_0_3_0 : S16x516x516.Slices ![0, 3, 0] S16x512x512
  slices_S16x25x512x512_S16x1x512x512_0_3_0_0 : S16x25x512x512.Slices ![0, 3, 0, 0] S16x1x512x512
  slices_S16x516x516_S16x512x512_0_4_0 : S16x516x516.Slices ![0, 4, 0] S16x512x512
  slices_S16x25x512x512_S16x1x512x512_0_4_0_0 : S16x25x512x512.Slices ![0, 4, 0, 0] S16x1x512x512
  slices_S16x516x516_S16x512x512_0_0_1 : S16x516x516.Slices ![0, 0, 1] S16x512x512
  slices_S16x25x512x512_S16x1x512x512_0_5_0_0 : S16x25x512x512.Slices ![0, 5, 0, 0] S16x1x512x512
  slices_S16x516x516_S16x512x512_0_1_1 : S16x516x516.Slices ![0, 1, 1] S16x512x512
  slices_S16x25x512x512_S16x1x512x512_0_6_0_0 : S16x25x512x512.Slices ![0, 6, 0, 0] S16x1x512x512
  slices_S16x516x516_S16x512x512_0_2_1 : S16x516x516.Slices ![0, 2, 1] S16x512x512
  slices_S16x25x512x512_S16x1x512x512_0_7_0_0 : S16x25x512x512.Slices ![0, 7, 0, 0] S16x1x512x512
  slices_S16x516x516_S16x512x512_0_3_1 : S16x516x516.Slices ![0, 3, 1] S16x512x512
  slices_S16x25x512x512_S16x1x512x512_0_8_0_0 : S16x25x512x512.Slices ![0, 8, 0, 0] S16x1x512x512
  slices_S16x516x516_S16x512x512_0_4_1 : S16x516x516.Slices ![0, 4, 1] S16x512x512
  slices_S16x25x512x512_S16x1x512x512_0_9_0_0 : S16x25x512x512.Slices ![0, 9, 0, 0] S16x1x512x512
  slices_S16x516x516_S16x512x512_0_0_2 : S16x516x516.Slices ![0, 0, 2] S16x512x512
  slices_S16x25x512x512_S16x1x512x512_0_10_0_0 : S16x25x512x512.Slices ![0, 10, 0, 0] S16x1x512x512
  slices_S16x516x516_S16x512x512_0_1_2 : S16x516x516.Slices ![0, 1, 2] S16x512x512
  slices_S16x25x512x512_S16x1x512x512_0_11_0_0 : S16x25x512x512.Slices ![0, 11, 0, 0] S16x1x512x512
  slices_S16x516x516_S16x512x512_0_2_2 : S16x516x516.Slices ![0, 2, 2] S16x512x512
  slices_S16x25x512x512_S16x1x512x512_0_12_0_0 : S16x25x512x512.Slices ![0, 12, 0, 0] S16x1x512x512
  slices_S16x516x516_S16x512x512_0_3_2 : S16x516x516.Slices ![0, 3, 2] S16x512x512
  slices_S16x25x512x512_S16x1x512x512_0_13_0_0 : S16x25x512x512.Slices ![0, 13, 0, 0] S16x1x512x512
  slices_S16x516x516_S16x512x512_0_4_2 : S16x516x516.Slices ![0, 4, 2] S16x512x512
  slices_S16x25x512x512_S16x1x512x512_0_14_0_0 : S16x25x512x512.Slices ![0, 14, 0, 0] S16x1x512x512
  slices_S16x516x516_S16x512x512_0_0_3 : S16x516x516.Slices ![0, 0, 3] S16x512x512
  slices_S16x25x512x512_S16x1x512x512_0_15_0_0 : S16x25x512x512.Slices ![0, 15, 0, 0] S16x1x512x512
  slices_S16x516x516_S16x512x512_0_1_3 : S16x516x516.Slices ![0, 1, 3] S16x512x512
  slices_S16x25x512x512_S16x1x512x512_0_16_0_0 : S16x25x512x512.Slices ![0, 16, 0, 0] S16x1x512x512
  slices_S16x516x516_S16x512x512_0_2_3 : S16x516x516.Slices ![0, 2, 3] S16x512x512
  slices_S16x25x512x512_S16x1x512x512_0_17_0_0 : S16x25x512x512.Slices ![0, 17, 0, 0] S16x1x512x512
  slices_S16x516x516_S16x512x512_0_3_3 : S16x516x516.Slices ![0, 3, 3] S16x512x512
  slices_S16x25x512x512_S16x1x512x512_0_18_0_0 : S16x25x512x512.Slices ![0, 18, 0, 0] S16x1x512x512
  slices_S16x516x516_S16x512x512_0_4_3 : S16x516x516.Slices ![0, 4, 3] S16x512x512
  slices_S16x25x512x512_S16x1x512x512_0_19_0_0 : S16x25x512x512.Slices ![0, 19, 0, 0] S16x1x512x512
  slices_S16x516x516_S16x512x512_0_0_4 : S16x516x516.Slices ![0, 0, 4] S16x512x512
  slices_S16x25x512x512_S16x1x512x512_0_20_0_0 : S16x25x512x512.Slices ![0, 20, 0, 0] S16x1x512x512
  slices_S16x516x516_S16x512x512_0_1_4 : S16x516x516.Slices ![0, 1, 4] S16x512x512
  slices_S16x25x512x512_S16x1x512x512_0_21_0_0 : S16x25x512x512.Slices ![0, 21, 0, 0] S16x1x512x512
  slices_S16x516x516_S16x512x512_0_2_4 : S16x516x516.Slices ![0, 2, 4] S16x512x512
  slices_S16x25x512x512_S16x1x512x512_0_22_0_0 : S16x25x512x512.Slices ![0, 22, 0, 0] S16x1x512x512
  slices_S16x516x516_S16x512x512_0_3_4 : S16x516x516.Slices ![0, 3, 4] S16x512x512
  slices_S16x25x512x512_S16x1x512x512_0_23_0_0 : S16x25x512x512.Slices ![0, 23, 0, 0] S16x1x512x512
  slices_S16x516x516_S16x512x512_0_4_4 : S16x516x516.Slices ![0, 4, 4] S16x512x512
  slices_S16x25x512x512_S16x1x512x512_0_24_0_0 : S16x25x512x512.Slices ![0, 24, 0, 0] S16x1x512x512
  bcast_S16x512x512_S1x16x512x512_1_2_3 : S16x512x512.BroadcastsInDim S1x16x512x512 (![1, 2, 3] : Fin 3 → Fin S1x16x512x512.rank)

variable [Facts₀]

class Facts : Prop extends Facts₀ where

variable [Facts]
-- ==== Proof.TapSum.lean ====
/-
  The mathematics both programs compute: a per-pixel 5 x 5 convolution.

  For a weight array K : [16, 25, 512, 512] and a zero-padded image P : [16, 516, 516] the result at
  (b, h, w) is the ORDERED sum, over the 25 taps n = 0 .. 24 (n = 5 * kw + kh, i.e. kh = n % 5, kw = n / 5),

      (((z + K[b,0,h,w] * P[b,h+0,w+0]) + K[b,1,h,w] * P[b,h+1,w+0]) + ...) + K[b,24,h,w] * P[b,h+4,w+4]

  starting from the zero word z.  Both programs add the taps in exactly this order, so no law of the
  extended reals is needed: the two sides are one term.  Arrays are read at NATURAL-NUMBER coordinates
  (`wAt`, `pAt`), so that two accesses are equal as soon as their coordinates are equal numbers.
-/
import Idealize.ShloMosaic.PureOps.Ideal
import Idealize.ShloMosaic.Lib.ValueIdx

noncomputable section

namespace Cert.TapSum

open Idealize.ShloMosaic Idealize.ShloMosaic.ValueIdx

/-- The weights' shape, the padded image's, and the result's. -/
abbrev WShape : Shape := ⟨4, ![16, 25, 512, 512]⟩
abbrev PShape : Shape := ⟨3, ![16, 516, 516]⟩
abbrev OShape : Shape := ⟨3, ![16, 512, 512]⟩

/-- The weight array at natural-number coordinates (batch, tap, row, column). -/
def wAt (K : WShape.Idx → Ideal .f32) (b n h w : ℕ) : Ideal .f32 :=
  if hh : b < 16 ∧ n < 25 ∧ h < 512 ∧ w < 512 then K (ix4 ⟨b, hh.1⟩ ⟨n, hh.2.1⟩ ⟨h, hh.2.2.1⟩ ⟨w, hh.2.2.2⟩) else 0

/-- The padded image at natural-number coordinates (batch, row, column). -/
def pAt (P : PShape.Idx → Ideal .f32) (b r c : ℕ) : Ideal .f32 :=
  if hh : b < 16 ∧ r < 516 ∧ c < 516 then P (ix3 ⟨b, hh.1⟩ ⟨r, hh.2.1⟩ ⟨c, hh.2.2⟩) else 0

/-- An entry of the weight array is `wAt` at the entry's coordinates. -/
theorem wAt_of (K : WShape.Idx → Ideal .f32) (k : WShape.Idx) (b n h w : ℕ)
    (h0 : (k 0).val = b) (h1 : (k 1).val = n) (h2 : (k 2).val = h) (h3 : (k 3).val = w) : K k = wAt K b n h w := by
  subst h0 h1 h2 h3
  unfold wAt
  rw [dif_pos ⟨(k 0).isLt, (k 1).isLt, (k 2).isLt, (k 3).isLt⟩]
  exact congrArg K (eq_ix4 k)

/-- An entry of the padded image is `pAt` at the entry's coordinates. -/
theorem pAt_of (P : PShape.Idx → Ideal .f32) (k : PShape.Idx) (b r c : ℕ)
    (h0 : (k 0).val = b) (h1 : (k 1).val = r) (h2 : (k 2).val = c) : P k = pAt P b r c := by
  subst h0 h1 h2
  unfold pAt
  rw [dif_pos ⟨(k 0).isLt, (k 1).isLt, (k 2).isLt⟩]
  exact congrArg P (eq_ix3 k)

/-- Tap `n` at pixel (b, h, w): the weight of tap `n` times the padded image shifted by (n % 5, n / 5). -/
def tapTerm (K : WShape.Idx → Ideal .f32) (P : PShape.Idx → Ideal .f32) (b h w n : ℕ) : Ideal .f32 :=
  wAt K b n h w * pAt P b (h + n % 5) (w + n / 5)

/-- The running sum of the first `n` taps at pixel (b, h, w), from the zero word, taps added in order. -/
def tapAcc (K : WShape.Idx → Ideal .f32) (P : PShape.Idx → Ideal .f32) (b h w : ℕ) : ℕ → Ideal .f32
  | 0 => Ideal.ofBits .f32 0x00000000#32
  | n + 1 => tapAcc K P b h w n + tapTerm K P b h w n

/-- The per-pixel convolution: all 25 taps. -/
def conv (K : WShape.Idx → Ideal .f32) (P : PShape.Idx → Ideal .f32) : OShape.Idx → Ideal .f32 :=
  fun i => tapAcc K P (i 0).val (i 1).val (i 2).val 25

theorem conv_apply (K : WShape.Idx → Ideal .f32) (P : PShape.Idx → Ideal .f32) (i : OShape.Idx) :
    conv K P i = tapAcc K P (i 0).val (i 1).val (i 2).val 25 := rfl

end Cert.TapSum

end
-- ==== Proof.KernelTaps.lean ====
/-
  The kernel body's arithmetic, tap by tap.

  The body loads 260 rows of the padded image block once (`v4`, [260, 516]) and, for tap n = 0 .. 24, one
  [1, 1, 256, 512] tile of weights; tap n adds to the running sum the tile (viewed [256, 512]) times the window of
  `v4` at offset (n % 5, n / 5).  The printed payloads `k0_pay3`, `k0_pay4`, `k0_pay5`, `k0_pay7` are that one step
  repeated 5, 7, 6 and 7 times: each IS the fold `tapFold` of the step over its run of taps (by unfolding).
  At the extended reals the fold, read at one element, is the specification's running sum `tapAcc` — one induction —,
  provided the image rows and the tiles are the arrays' entries the kernel's windows name (`IsRows`, `IsTile`).
-/
import proofs.«179604_j76373108457968_1_alg».proof.Proof.Gen.KernelIdeal.Skeleton
import proofs.«179604_j76373108457968_1_alg».proof.Proof.TapSum
import Idealize.ShloMosaic.Lib.Pipeline.Value
import Idealize.ShloMosaic.Lib.ValueIdx

noncomputable section

open Idealize.ShloMosaic Idealize.ShloMosaic.ValueIdx

namespace Cert.KernelIdeal.Taps

open Cert.KernelIdeal Cert.KernelIdeal.Gen Cert.TapSum

/-! ## One tap and a run of taps, at any instance -/

section Generic

variable {F : FTy → Type} [FloatOps F]

/-- Tap `n`'s window of the image rows starts at (n % 5, n / 5) and fits. -/
theorem winSlices : ∀ n : Fin 25, S260x516.Slices ![n.val % 5, n.val / 5] S256x512 := by decide

/-- Tap `n`: the running sum plus the tile times the shifted window of the image rows. -/
def tapStep (v4 : FVec F S260x516 .f32) (n : Fin 25) (vw : Vec F S1x1x256x512 .f32) (acc : FVec F S256x512 .f32) :
    FVec F S256x512 .f32 :=
  addf acc (mulf (shapeCast S256x512 vw shapeCasts_S1x1x256x512_S256x512)
    (extractStridedSlice S256x512 ![n.val % 5, n.val / 5] v4 (winSlices n)))

/-- Taps `lo`, …, `lo + k - 1` in order, from `acc`. -/
def tapFold (v4 : FVec F S260x516 .f32) (w : Fin 25 → Vec F S1x1x256x512 .f32) (lo : ℕ) :
    (k : ℕ) → lo + k ≤ 25 → FVec F S256x512 .f32 → FVec F S256x512 .f32
  | 0, _, acc => acc
  | k + 1, h, acc => tapStep v4 ⟨lo + k, by omega⟩ (w ⟨lo + k, by omega⟩) (tapFold v4 w lo k (by omega) acc)

/-- The zero block the sum starts from. -/
abbrev zeroBlock : FVec F S256x512 .f32 := broadcast S256x512 (Scalar.ofBits .f32 0x00000000#32)

/-- Taps 0 – 4 (the first payload, which also views the loaded rows [1, 260, 516] as [260, 516]). -/
theorem pay3_eq (v3 : Vec F S1x260x516 .f32) (w : Fin 25 → Vec F S1x1x256x512 .f32) :
    k0_pay3 v3 (w 0) (w 1) (w 2) (w 3) (w 4) = tapFold (k0_pay2 v3) w 0 5 (by decide) zeroBlock := rfl

/-- Taps 5 – 11. -/
theorem pay4_eq (v4 : FVec F S260x516 .f32) (acc : FVec F S256x512 .f32) (w : Fin 25 → Vec F S1x1x256x512 .f32) :
    k0_pay4 v4 acc (w 5) (w 6) (w 7) (w 8) (w 9) (w 10) (w 11) = tapFold v4 w 5 7 (by decide) acc := rfl

/-- Taps 12 – 17. -/
theorem pay5_eq (v4 : FVec F S260x516 .f32) (acc : FVec F S256x512 .f32) (w : Fin 25 → Vec F S1x1x256x512 .f32) :
    k0_pay5 v4 acc (w 12) (w 13) (w 14) (w 15) (w 16) (w 17) = tapFold v4 w 12 6 (by decide) acc := rfl

/-- Taps 18 – 24 (tap 18's tile was viewed [256, 512] by the payload before). -/
theorem pay7_eq (v4 : FVec F S260x516 .f32) (acc : FVec F S256x512 .f32) (w : Fin 25 → Vec F S1x1x256x512 .f32) :
    k0_pay7 v4 acc (k0_pay6 (w 18)) (w 19) (w 20) (w 21) (w 22) (w 23) (w 24) = tapFold v4 w 18 7 (by decide) acc := rfl

end Generic

/-! ## At the extended reals: the fold read at one element -/

/-- The image rows `v4` are rows `h0`, `h0 + 1`, … of batch `b` of the padded image `P`. -/
def IsRows (P : PShape.Idx → Ideal .f32) (b h0 : ℕ) (v4 : FVec Ideal S260x516 .f32) : Prop :=
  ∀ (r : Fin 260) (c : Fin 516), v4 (ix2 r c) = pAt P b (h0 + r.val) c.val

/-- The tile `vw` is tap `n`'s weights of batch `b` at rows `h0`, `h0 + 1`, …. -/
def IsTile (K : WShape.Idx → Ideal .f32) (b h0 n : ℕ) (vw : Vec Ideal S1x1x256x512 .f32) : Prop :=
  ∀ (r : Fin 256) (c : Fin 512), vw (ix4 0 0 r c) = wAt K b n (h0 + r.val) c.val

/-- A [1, 1, 256, 512] tile viewed [256, 512], at (r, c), is its entry (0, 0, r, c): same row-major position. -/
theorem tile_apply (vw : Vec Ideal S1x1x256x512 .f32) (hc : S1x1x256x512.ShapeCasts S256x512) (r : Fin 256) (c : Fin 512) :
    shapeCast S256x512 vw hc (ix2 r c) = vw (ix4 0 0 r c) :=
  shapeCast_apply vw hc (ix2 r c) (ix4 0 0 r c) (by
    rw [Shape.rowMajor_val_four, Shape.rowMajor_val_two]
    show ((0 * 1 + 0) * 256 + r.val) * 512 + c.val = r.val * 512 + c.val
    omega)

/-- The loaded rows [1, 260, 516] viewed [260, 516], at (r, c), are the entry (0, r, c). -/
theorem rows_apply (v3 : Vec Ideal S1x260x516 .f32) (r : Fin 260) (c : Fin 516) :
    k0_pay2 v3 (ix2 r c) = v3 (ix3 0 r c) :=
  shapeCast_apply v3 shapeCasts_S1x260x516_S260x516 (ix2 r c) (ix3 0 r c) (by
    rw [Shape.rowMajor_val_three, Shape.rowMajor_val_two]
    show (0 * 260 + r.val) * 516 + c.val = r.val * 516 + c.val
    omega)

/-- The [256, 512] window of the image rows at offset (kh, kw), at (r, c), is row kh + r, column kw + c. -/
theorem win_apply (v4 : FVec Ideal S260x516 .f32) (kh kw : ℕ) (hkh : kh < 5) (hkw : kw < 5)
    (hs : S260x516.Slices ![kh, kw] S256x512) (r : Fin 256) (c : Fin 512) :
    extractStridedSlice S256x512 ![kh, kw] v4 hs (ix2 r c)
      = v4 (ix2 ⟨kh + r.val, by have := r.isLt; omega⟩ ⟨kw + c.val, by have := c.isLt; omega⟩) :=
  extractStridedSlice_apply ![kh, kw] v4 hs (ix2 r c) _ (fun a => match a with
    | ⟨0, _⟩ => rfl
    | ⟨1, _⟩ => rfl)

/-- ONE TAP at one element: the running sum of `n` taps becomes that of `n + 1`. -/
theorem tapStep_acc (K : WShape.Idx → Ideal .f32) (P : PShape.Idx → Ideal .f32) (b h0 : ℕ)
    (v4 : FVec Ideal S260x516 .f32) (hv4 : IsRows P b h0 v4) (n : Fin 25)
    (vw : Vec Ideal S1x1x256x512 .f32) (hvw : IsTile K b h0 n.val vw)
    (acc : FVec Ideal S256x512 .f32) (r : Fin 256) (c : Fin 512)
    (hacc : acc (ix2 r c) = tapAcc K P b (h0 + r.val) c.val n.val) :
    tapStep v4 n vw acc (ix2 r c) = tapAcc K P b (h0 + r.val) c.val (n.val + 1) := by
  have h5 : n.val % 5 < 5 := Nat.mod_lt _ (by decide)
  have h6 : n.val / 5 < 5 := by have := n.isLt; omega
  show acc (ix2 r c) + shapeCast S256x512 vw shapeCasts_S1x1x256x512_S256x512 (ix2 r c)
      * extractStridedSlice S256x512 ![n.val % 5, n.val / 5] v4 (winSlices n) (ix2 r c) = _
  rw [hacc, tile_apply, hvw r c, win_apply v4 _ _ h5 h6, hv4]
  show tapAcc K P b (h0 + r.val) c.val n.val + wAt K b n.val (h0 + r.val) c.val * pAt P b (h0 + (n.val % 5 + r.val)) (n.val / 5 + c.val)
    = tapAcc K P b (h0 + r.val) c.val n.val + wAt K b n.val (h0 + r.val) c.val * pAt P b (h0 + r.val + n.val % 5) (c.val + n.val / 5)
  rw [show h0 + (n.val % 5 + r.val) = h0 + r.val + n.val % 5 by omega, show n.val / 5 + c.val = c.val + n.val / 5 by omega]

/-- A RUN OF TAPS at one element, by induction on its length. -/
theorem tapFold_acc (K : WShape.Idx → Ideal .f32) (P : PShape.Idx → Ideal .f32) (b h0 : ℕ)
    (v4 : FVec Ideal S260x516 .f32) (hv4 : IsRows P b h0 v4)
    (w : Fin 25 → Vec Ideal S1x1x256x512 .f32) (hw : ∀ n : Fin 25, IsTile K b h0 n.val (w n)) (lo : ℕ)
    (acc : FVec Ideal S256x512 .f32) (r : Fin 256) (c : Fin 512)
    (hacc : acc (ix2 r c) = tapAcc K P b (h0 + r.val) c.val lo) :
    ∀ (k : ℕ) (h : lo + k ≤ 25), tapFold v4 w lo k h acc (ix2 r c) = tapAcc K P b (h0 + r.val) c.val (lo + k)
  | 0, _ => hacc
  | k + 1, h => tapStep_acc K P b h0 v4 hv4 ⟨lo + k, by omega⟩ _ (hw _) _ r c (tapFold_acc K P b h0 v4 hv4 w hw lo acc r c hacc k (by omega))

/-- The stored block [1, 256, 512] is the sum [256, 512] with a unit axis in front: (0, r, c) reads (r, c). -/
theorem pay1_apply (v130 : FVec Ideal S256x512 .f32) (r : Fin 256) (c : Fin 512) :
    k0_pay1 v130 (ix3 0 r c) = v130 (ix2 r c) := by
  unfold k0_pay1
  exact shapeCast_apply v130 shapeCasts_S256x512_S1x256x512 (ix3 0 r c) (ix2 r c) (by
    rw [Shape.rowMajor_val_three, Shape.rowMajor_val_two]
    show r.val * 512 + c.val = (0 * 256 + r.val) * 512 + c.val
    omega)

/-- ALL 25 TAPS: the body's stored block, as the four payloads compose it, read at (0, r, c). -/
theorem body_acc (K : WShape.Idx → Ideal .f32) (P : PShape.Idx → Ideal .f32) (b h0 : ℕ)
    (v3 : Vec Ideal S1x260x516 .f32) (hv3 : ∀ (r : Fin 260) (c : Fin 516), v3 (ix3 0 r c) = pAt P b (h0 + r.val) c.val)
    (w : Fin 25 → Vec Ideal S1x1x256x512 .f32) (hw : ∀ n : Fin 25, IsTile K b h0 n.val (w n))
    (r : Fin 256) (c : Fin 512) :
    k0_pay1 (k0_pay7 (k0_pay2 v3)
        (k0_pay5 (k0_pay2 v3)
          (k0_pay4 (k0_pay2 v3) (k0_pay3 v3 (w 0) (w 1) (w 2) (w 3) (w 4)) (w 5) (w 6) (w 7) (w 8) (w 9) (w 10) (w 11))
          (w 12) (w 13) (w 14) (w 15) (w 16) (w 17))
        (k0_pay6 (w 18)) (w 19) (w 20) (w 21) (w 22) (w 23) (w 24)) (ix3 0 r c)
      = tapAcc K P b (h0 + r.val) c.val 25 := by
  have hv4 : IsRows P b h0 (k0_pay2 v3) := fun r c => (rows_apply v3 r c).trans (hv3 r c)
  rw [pay3_eq, pay4_eq, pay5_eq, pay7_eq]
  rw [pay1_apply]
  exact tapFold_acc K P b h0 _ hv4 w hw 18 _ r c
    (tapFold_acc K P b h0 _ hv4 w hw 12 _ r c
      (tapFold_acc K P b h0 _ hv4 w hw 5 _ r c
        (tapFold_acc K P b h0 _ hv4 w hw 0 _ r c rfl 5 (by decide)) 7 (by decide)) 6 (by decide)) 7 (by decide)

end Cert.KernelIdeal.Taps

end
-- ==== Proof.KernelPiece.lean ====
/-
  What one grid point's body leaves in the output block, at the extended reals.

  The body's one store covers the whole [1, 256, 512] block with the 25-tap sum of its loads: 260 rows of the padded
  image block from row 256 * (the H-tile's number) on, and the 25 weight tiles of the weights' block.  When the two
  input blocks are the arrays' entries their windows name, the stored block at (0, r, c) is the specification's
  running sum of all 25 taps at row 256 * tile + r, column c.
-/
import proofs.«179604_j76373108457968_1_alg».proof.Proof.Gen.KernelIdeal.Frame
import proofs.«179604_j76373108457968_1_alg».proof.Proof.KernelTaps
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx

namespace Cert.KernelIdeal.Piece

open Cert.KernelIdeal Cert.KernelIdeal.Gen Cert.TapSum Cert.KernelIdeal.Taps

theorem hz3 : (![0, 0, 0] : Fin 3 → Nat) = fun _ => 0 := funext fun a => by fin_cases a <;> rfl

/-- Tap `n`'s tile lies inside the weights' block. -/
theorem tileInb (n : Fin 25) : ∀ a, (![0, n.val, 0, 0] : Fin 4 → Nat) a + S1x1x256x512.size a ≤ S1x25x256x512.size a := by
  have := n.isLt
  intro a
  match a with
  | ⟨0, _⟩ => show 0 + 1 ≤ 1; omega
  | ⟨1, _⟩ => show n.val + 1 ≤ 25; omega
  | ⟨2, _⟩ => show 0 + 256 ≤ 256; omega
  | ⟨3, _⟩ => show 0 + 512 ≤ 512; omega

/-- THE OUTPUT BLOCK of one grid point at (0, r, c): all 25 taps at row 256 * (i 1) + r, column c, of batch `b`. -/
theorem out_apply (K : WShape.Idx → Ideal .f32) (P : PShape.Idx → Ideal .f32) (b : ℕ)
    (c : Dev nD) (i : grid0.Coords)
    (arg2 : Memref sig .tc .vmem S1x25x256x512 .f32) (harg2 : arg2.IsWhole)
    (arg3 : Memref sig .tc .vmem S1x516x516 .f32) (harg3 : arg3.IsWhole)
    (arg4 : Memref sig .tc .vmem S1x256x512 .f32) (harg4 : arg4.IsWhole)
    (x0 : Vec Ideal S1x25x256x512 .f32) (x1 : Vec Ideal S1x516x516 .f32)
    (hx0 : ∀ k : S1x25x256x512.Idx, x0 k = wAt K b (k 1).val (256 * (i 1).val + (k 2).val) (k 3).val)
    (hx1 : ∀ k : S1x516x516.Idx, x1 k = pAt P b (k 1).val (k 2).val)
    (r : Fin 256) (cc : Fin 512) :
    out0_A_2 (F := Ideal) c i arg2 harg2 arg3 harg3 arg4 harg4 x0 x1 (ix3 0 r cc)
      = tapAcc K P b (256 * (i 1).val + r.val) cc.val 25 := by
  unfold out0_A_2
  rw [View.read_writes_eq_canon _ _ _ (cover0_A_2 c i arg2 harg2 arg3 harg3 arg4 harg4 x0 x1)]
  unfold kernelRun0_A
  dsimp only
  sl_unfold_words
  rw [View.canon_unit_zero hz3]
  simp only [View.readAt_eq_ld, harg2.read_unread, harg3.read_unread]
  refine body_acc K P b (256 * (i 1).val)
    (View.ld x1 (Rect.unit (k0_off1 i) S1x260x516.size (k0_off1_inb i))) ?_
    (fun n => View.ld x0 (Rect.unit ![0, n.val, 0, 0] S1x1x256x512.size (tileInb n))) ?_ r cc
  · intro r' c'
    refine (hx1 _).trans ?_
    have e1 : k0_off1 i 1 = 256 * (i 1).val := by rw [k0_off1_eq]; rfl
    have e2 : k0_off1 i 2 = 0 := by rw [k0_off1_eq]; rfl
    show pAt P b (k0_off1 i 1 + 1 * r'.val) (k0_off1 i 2 + 1 * c'.val) = _
    rw [e1, e2]
    congr 1 <;> omega
  · intro n r' c'
    refine (hx0 _).trans ?_
    show wAt K b (n.val + 1 * 0) (256 * (i 1).val + (0 + 1 * r'.val)) (0 + 1 * c'.val) = _
    congr 1 <;> omega

end Cert.KernelIdeal.Piece

end
-- ==== Proof.KernelBlocks.lean ====
/-
  From one grid point's block to the whole result array, and on to @main's result.

  Grid point t = (b, tile) reads the weights' block (b, 0, tile, 0), the whole padded image of batch b, and writes back
  block (b, tile, 0) of the [16, 512, 512] result: rows 256 * tile … 256 * tile + 255 of batch b.  Each written block is
  the restriction of ONE function of the arrays, the per-pixel convolution `conv` of the weights and the padded image
  as the region finds them; the 32 blocks cover the result array, so it ends holding `conv`.  The host operation after
  the region only adds a leading unit axis.
-/
import proofs.«179604_j76373108457968_1_alg».proof.Proof.Gen.KernelIdeal.Frame
import proofs.«179604_j76373108457968_1_alg».proof.Proof.KernelPiece
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.TapSum Cert.KernelIdeal.Piece

variable (m : (ℓ : Loc nD τ sig) → Buf (Elt Ideal) ℓ) (ρ : Dev nD → PrngReg)

/-- The weights and the padded image as the region finds them, and the blocks a grid point reads of them. -/
abbrev warr (c : Dev nD) : Vec Ideal S16x25x512x512 .f32 := V m c main_arg0
abbrev parr (c : Dev nD) : Vec Ideal S16x516x516 .f32 := V m c main_v1
abbrev wblk (c : Dev nD) (t : Fin cfg0.N) : Vec Ideal S1x25x256x512 .f32 := iblk m c 0 t
abbrev pblk (c : Dev nD) (t : Fin cfg0.N) : Vec Ideal S1x516x516 .f32 := iblk m c 1 t

/-- What the result array ends holding. -/
abbrev result (c : Dev nD) : Vec Ideal S16x512x512 .f32 := conv (warr m c) (parr m c)

/-- The printed index maps, decided over the 32 grid points: the weights' block is (b, 0, tile, 0), the image's
    (b, 0, 0), the result's (b, tile, 0), and the body's row offset is the tile's number. -/
theorem idx_facts : ∀ t : Fin cfg0.N,
    win0_0.index t (0 : Fin 4) = win0_2.index t (0 : Fin 3) ∧ win0_0.index t (1 : Fin 4) = 0
    ∧ win0_0.index t (2 : Fin 4) = win0_2.index t (1 : Fin 3) ∧ win0_0.index t (3 : Fin 4) = 0
    ∧ win0_1.index t (0 : Fin 3) = win0_2.index t (0 : Fin 3) ∧ win0_1.index t (1 : Fin 3) = 0 ∧ win0_1.index t (2 : Fin 3) = 0
    ∧ win0_2.index t (2 : Fin 3) = 0 ∧ (grid0.coords t 1).val = win0_2.index t (1 : Fin 3) :=
  (by decide +kernel : ∀ t : Fin grid0.N, _)

/-- Every block (b, tile, 0) of the result is some point's. -/
theorem idx_onto : ∀ (q0 : Fin 16) (q1 : Fin 2), ∃ t : Fin cfg0.N, win0_2.index t = ![q0.val, q1.val, 0] :=
  (by decide +kernel : ∀ (q0 : Fin 16) (q1 : Fin 2), ∃ t : Fin grid0.N, win0_2.index t = ![q0.val, q1.val, 0])

/-- The weights' block at point t holds the weights of batch b at rows 256 * tile + …. -/
theorem wblk_apply (c : Dev nD) (t : Fin cfg0.N) (k : S1x25x256x512.Idx) :
    wblk m c t k = wAt (warr m c) (win0_2.index t (0 : Fin 3)) (k 1).val (256 * (grid0.coords t 1).val + (k 2).val) (k 3).val := by
  obtain ⟨e00, e01, e02, e03, e10, e11, e12, e22, eg⟩ := idx_facts t
  have h0 : (k 0).val < 1 := (k 0).isLt
  show warr m c (((cfg0.win 0).blk t).view.emb k) = _
  refine wAt_of (warr m c) _ _ _ _ _ ?_ ?_ ?_ ?_
  · show win0_0.index t (0 : Fin 4) * 1 + 1 * (k 0).val = _; omega
  · show win0_0.index t (1 : Fin 4) * 25 + 1 * (k 1).val = _; omega
  · show win0_0.index t (2 : Fin 4) * 256 + 1 * (k 2).val = _; omega
  · show win0_0.index t (3 : Fin 4) * 512 + 1 * (k 3).val = _; omega

/-- The image's block at point t is the whole padded image of batch b. -/
theorem pblk_apply (c : Dev nD) (t : Fin cfg0.N) (k : S1x516x516.Idx) :
    pblk m c t k = pAt (parr m c) (win0_2.index t (0 : Fin 3)) (k 1).val (k 2).val := by
  obtain ⟨e00, e01, e02, e03, e10, e11, e12, e22, eg⟩ := idx_facts t
  have h0 : (k 0).val < 1 := (k 0).isLt
  show parr m c (((cfg0.win 1).blk t).view.emb k) = _
  refine pAt_of (parr m c) _ _ _ _ ?_ ?_ ?_
  · show win0_1.index t (0 : Fin 3) * 1 + 1 * (k 0).val = _; omega
  · show win0_1.index t (1 : Fin 3) * 516 + 1 * (k 1).val = _; omega
  · show win0_1.index t (2 : Fin 3) * 516 + 1 * (k 2).val = _; omega

/-- WHAT POINT t WRITES BACK is block t of `conv` of the two arrays as the region finds them. -/
theorem flushed_eq (c : Dev nD) (t : Fin cfg0.N) :
    (dats m 0 c).flushed 2 t = ((cfg0.win 2).blk t).view.read (Elt Ideal) (result m c) := by
  show (cfg0.win 2).cut (grid0.coords t) ((dats m 0 c).after 2 t) = _
  rw [after0_2]
  unfold outsAt0
  obtain ⟨e00, e01, e02, e03, e10, e11, e12, e22, eg⟩ := idx_facts t
  refine funext fun (j : S1x256x512.Idx) => ?_
  obtain ⟨p, r, cc, rfl⟩ : ∃ (p : Fin 1) (r : Fin 256) (cc : Fin 512), j = ix3 p r cc := ⟨j 0, j 1, j 2, eq_ix3 j⟩
  obtain rfl : p = 0 := Subsingleton.elim _ _
  show out0_A_2 (F := Ideal) c (grid0.coords t) (ms0_0 t) (hs0_0 t) (ms0_1 t) (hs0_1 t) (ms0_2 t) (hs0_2 t) (wblk m c t) (pblk m c t) (ix3 0 r cc)
    = result m c (((cfg0.win 2).blk t).view.emb (ix3 0 r cc))
  refine (out_apply (warr m c) (parr m c) (win0_2.index t (0 : Fin 3)) c (grid0.coords t) (ms0_0 t) (hs0_0 t) (ms0_1 t) (hs0_1 t)
    (ms0_2 t) (hs0_2 t) (wblk m c t) (pblk m c t) (wblk_apply m c t) (pblk_apply m c t) r cc).trans ?_
  show tapAcc (warr m c) (parr m c) (win0_2.index t (0 : Fin 3)) (256 * (grid0.coords t 1).val + r.val) cc.val 25
    = tapAcc (warr m c) (parr m c) (win0_2.index t (0 : Fin 3) * 1 + 1 * 0) (win0_2.index t (1 : Fin 3) * 256 + 1 * r.val)
        (win0_2.index t (2 : Fin 3) * 512 + 1 * cc.val) 25
  congr 1 <;> omega

/-- An index of the result array is in point t's block iff each coordinate is in the block's range on its axis. -/
theorem mem_blk (t : Fin cfg0.N) (i : S16x512x512.Idx) :
    i ∈ ((cfg0.win 2).blk t).view.set ↔ ∀ a : Fin 3, win0_2.index t a * S1x256x512.size a ≤ (i a).val ∧ (i a).val < win0_2.index t a * S1x256x512.size a + S1x256x512.size a := by
  show i ∈ ((View.whole main_v2).slice (win0_2.rect t)).set ↔ _
  rw [View.set_slice_whole, Rect.mem_set_unit]
  exact Iff.rfl

/-- THE RESULT ARRAY after the region: the point that covers row h of batch b is (b, h / 256). -/
theorem final (c : Dev nD) : (dats m 0 c).arrAt 2 cfg0.N = result m c :=
  (dats m 0 c).arrAt_eq_of_cover 2 (result m c) (fun t _ => flushed_eq m c t) fun i => by
    have hi0 : (i 0).val < 16 := (i 0).isLt
    have hi1 : (i 1).val < 512 := (i 1).isLt
    have hi2 : (i 2).val < 512 := (i 2).isLt
    obtain ⟨t, ht⟩ := idx_onto ⟨(i 0).val, hi0⟩ ⟨(i 1).val / 256, by omega⟩
    have q0 : win0_2.index t (0 : Fin 3) = (i 0).val := congrFun ht 0
    have q1 : win0_2.index t (1 : Fin 3) = (i 1).val / 256 := congrFun ht 1
    have q2 : win0_2.index t (2 : Fin 3) = 0 := congrFun ht 2
    refine ⟨t, flush0_2 t, ?_⟩
    rw [mem_blk]
    intro a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 256 ≤ (i 1).val ∧ (i 1).val < win0_2.index t (1 : Fin 3) * 256 + 256; omega
    | ⟨2, _⟩ => show win0_2.index t (2 : Fin 3) * 512 ≤ (i 2).val ∧ (i 2).val < win0_2.index t (2 : Fin 3) * 512 + 512; omega

end Cert.KernelIdeal.Blocks

end
-- ==== Proof.KernelRun.lean ====
/-
  The idealized kernel's run, read: @main's result is the per-pixel convolution of the weights argument and the
  zero-padded image argument, with a leading unit axis; the arguments end unchanged.

  Before the region @main views the image [16, 1, 512, 512] as [16, 512, 512] and pads it by two zeros on each side
  of the last two axes; the weights reach the region as launched.  After the region one broadcast adds the leading axis.
-/
import proofs.«179604_j76373108457968_1_alg».proof.Proof.Gen.KernelIdeal.Frame
import proofs.«179604_j76373108457968_1_alg».proof.Proof.KernelBlocks
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Blocks

open Cert.KernelIdeal Cert.KernelIdeal.Gen Cert.TapSum Cert.KernelIdeal.Piece

variable (m : (ℓ : Loc nD τ sig) → Buf (Elt Ideal) ℓ) (ρ : Dev nD → PrngReg)

/-- The image argument, zero-padded: what @main's lines before the region compute. -/
abbrev padded (x1 : Vec Ideal S16x1x512x512 .f32) : Vec Ideal S16x516x516 .f32 :=
  pad S16x516x516 ![0, 2, 2] ![0, 2, 2] ![0, 0, 0]
    (shapeCast S16x512x512 x1 shapeCasts_S16x1x512x512_S16x512x512)
    (sitofp (F := Ideal) .f32 (constantI S_ 32 0#32)) pads_S16x512x512_S16x516x516_000_220_220 h_S_

/-- The region finds the padded image in the image window's array. -/
theorem parr_eq (c : Dev nD) : parr m c = padded (m ((c.tc : Thread nD τ).loc main_arg1)) := by
  show V m c main_v1 = _
  dsimp only [V, V0]
  simp only [hostOps0, hostOps0_1, List.flatten_cons, List.flatten_nil, List.append_nil, List.cons_append, List.nil_append]
  after_results
  rfl

/-- The region finds the weights as launched. -/
theorem warr_eq (c : Dev nD) : warr m c = m ((c.tc : Thread nD τ).loc main_arg0) := V_main_arg0 m c

/-- @main's result: the convolution with a leading unit axis. -/
abbrev value (c : Dev nD) : Vec Ideal S1x16x512x512 .f32 :=
  broadcastInDim S1x16x512x512 ![1, 2, 3] bcast_S16x512x512_S1x16x512x512_1_2_3
    (conv (m ((c.tc : Thread nD τ).loc main_arg0)) (padded (m ((c.tc : Thread nD τ).loc main_arg1))))

/-- The line after the region broadcasts the result array as the region left it. -/
theorem tail_eq (c : Dev nD) : Pipeline.afterTail₀ cfgs (dats m) 0 (V0 m) [hostOps1] c main_v3 = value m c := by
  unfold Pipeline.afterTail₀
  show StableHlo.after hostOps1 _ (Proc.devRef .tc main_v3) = _
  after_results
  refine congrArg _ (((Pipeline.withArrays_arr spec0 launch0.win.arr_inj c _ _ 2).trans (final m c)).trans ?_)
  show conv (warr m c) (parr m c) = _
  rw [warr_eq, parr_eq]

/-- THE RUN, read: the result at `value`, the arguments unchanged. -/
theorem run : θ_run defs (onTc (τ := τ) (main (F := Ideal))) ⟨m, fun _ => 0, ρ⟩ fun r => ∀ c : Dev nD,
      r.2.mem ((c.tc : Thread nD τ).loc main_v3) = value m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Blocks

end
-- ==== Proof.RefTap.lean ====
/-
  One tap of the reference's sum as a function of the tap's number, and the run of consecutive taps.

  Tap `n` (n = 5 * kw + kh) reads the weights' slice at offsets (0, n, 0, 0), reshaped to [16, 512, 512], and the
  padded image's slice at offsets (0, n % 5, n / 5); it multiplies the two and adds the product to the running
  sum.  `foldTaps K P lo k A` applies taps lo, lo + 1, ..., lo + k - 1 in this order to the running sum `A`.

  At the ideal instance one tap at a pixel (b, h, w) adds `tapTerm K P b h w n` to the running sum there, so a
  run of taps from a running sum that is `tapAcc ... lo` at every pixel ends at `tapAcc ... (lo + k)`.
-/
import proofs.«179604_j76373108457968_1_alg».proof.Proof.Gen.ReferenceIdeal
import proofs.«179604_j76373108457968_1_alg».proof.Proof.TapSum
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Idealize.ShloMosaic Idealize.ShloMosaic.ValueIdx

/-- The weights' block of tap `n` lies inside the weight array. -/
theorem wSlices : ∀ n : Fin 25, S16x25x512x512.Slices ![0, n.val, 0, 0] S16x1x512x512 := by decide

/-- The padded image's block of tap `n`, shifted by (n % 5, n / 5), lies inside the padded image. -/
theorem pSlices : ∀ n : Fin 25, S16x516x516.Slices ![0, n.val % 5, n.val / 5] S16x512x512 := by decide

section Generic

variable {F : FTy → Type} [FloatOps F]

/-- Tap `n`: the running sum plus the weights of tap `n` times the padded image shifted by (n % 5, n / 5). -/
def tapStage (n : Fin 25) (K : FVec F S16x25x512x512 .f32) (P : FVec F S16x516x516 .f32) (A : FVec F S16x512x512 .f32) :
    FVec F S16x512x512 .f32 :=
  addf A (mulf
    (shapeCast S16x512x512 (extractStridedSlice S16x1x512x512 ![0, n.val, 0, 0] K (wSlices n)) shapeCasts_S16x1x512x512_S16x512x512)
    (extractStridedSlice S16x512x512 ![0, n.val % 5, n.val / 5] P (pSlices n)))

/-- Taps lo, lo + 1, ..., lo + k - 1 applied in order to the running sum `A`. -/
def foldTaps (K : FVec F S16x25x512x512 .f32) (P : FVec F S16x516x516 .f32) (lo : ℕ) :
    (k : ℕ) → lo + k ≤ 25 → FVec F S16x512x512 .f32 → FVec F S16x512x512 .f32
  | 0, _, A => A
  | k + 1, h, A => tapStage ⟨lo + k, by omega⟩ K P (foldTaps K P lo k (by omega) A)

theorem foldTaps_zero (K : FVec F S16x25x512x512 .f32) (P : FVec F S16x516x516 .f32) (lo : ℕ) (h : lo + 0 ≤ 25)
    (A : FVec F S16x512x512 .f32) : foldTaps K P lo 0 h A = A := rfl

theorem foldTaps_succ (K : FVec F S16x25x512x512 .f32) (P : FVec F S16x516x516 .f32) (lo k : ℕ) (h : lo + (k + 1) ≤ 25)
    (A : FVec F S16x512x512 .f32) :
    foldTaps K P lo (k + 1) h A = tapStage ⟨lo + k, by omega⟩ K P (foldTaps K P lo k (by omega) A) := rfl

end Generic

/-! ## At the ideal instance -/

/-- One tap at a pixel: the running sum there plus the tap's term. -/
theorem tapStage_apply (n : Fin 25) (K : FVec Ideal S16x25x512x512 .f32) (P : FVec Ideal S16x516x516 .f32)
    (A : FVec Ideal S16x512x512 .f32) (i : S16x512x512.Idx) :
    tapStage n K P A i = A i + Cert.TapSum.tapTerm K P (i 0).val (i 1).val (i 2).val n.val := by
  show A i + (shapeCast S16x512x512 (extractStridedSlice S16x1x512x512 ![0, n.val, 0, 0] K (wSlices n)) shapeCasts_S16x1x512x512_S16x512x512 i
        * extractStridedSlice S16x512x512 ![0, n.val % 5, n.val / 5] P (pSlices n) i)
      = A i + (Cert.TapSum.wAt K (i 0).val n.val (i 1).val (i 2).val
        * Cert.TapSum.pAt P (i 0).val ((i 1).val + n.val % 5) ((i 2).val + n.val / 5))
  congr 2
  · -- the weights: the reshape drops the unit axis, the slice shifts the tap axis by n
    refine (shapeCast_apply _ _ i (ix4 (i 0) (0 : Fin 1) (i 1) (i 2)) ?_).trans ?_
    · rw [Shape.rowMajor_val_four, Shape.rowMajor_val_three]
      show (((i 0).val * 1 + 0) * 512 + (i 1).val) * 512 + (i 2).val = ((i 0).val * 512 + (i 1).val) * 512 + (i 2).val
      omega
    refine (extractStridedSlice_apply _ K _ _ (ix4 (i 0) n (i 1) (i 2)) ?_).trans ?_
    · intro a
      match a with
      | ⟨0, _⟩ => show (i 0).val = 0 + (i 0).val; omega
      | ⟨1, _⟩ => show n.val = n.val + 0; omega
      | ⟨2, _⟩ => show (i 1).val = 0 + (i 1).val; omega
      | ⟨3, _⟩ => show (i 2).val = 0 + (i 2).val; omega
    exact Cert.TapSum.wAt_of K _ _ _ _ _ rfl rfl rfl rfl
  · -- the padded image: the slice shifts rows by n % 5 and columns by n / 5
    have h1 : (i 1).val + n.val % 5 < 516 := by have := (i 1).isLt; have : (i 1).val < 512 := this; omega
    have h2 : (i 2).val + n.val / 5 < 516 := by have := (i 2).isLt; have : (i 2).val < 512 := this; have := n.isLt; omega
    refine (extractStridedSlice_apply _ P _ _ (ix3 (i 0) ⟨(i 1).val + n.val % 5, h1⟩ ⟨(i 2).val + n.val / 5, h2⟩) ?_).trans ?_
    · intro a
      match a with
      | ⟨0, _⟩ => show (i 0).val = 0 + (i 0).val; omega
      | ⟨1, _⟩ => show (i 1).val + n.val % 5 = n.val % 5 + (i 1).val; omega
      | ⟨2, _⟩ => show (i 2).val + n.val / 5 = n.val / 5 + (i 2).val; omega
    exact Cert.TapSum.pAt_of P _ _ _ _ rfl rfl rfl

/-- A run of taps from a running sum that is the sum of the first `lo` taps at every pixel ends at the sum of
    the first `lo + k` taps. -/
theorem foldTaps_apply (K : FVec Ideal S16x25x512x512 .f32) (P : FVec Ideal S16x516x516 .f32) (lo : ℕ) :
    ∀ (k : ℕ) (h : lo + k ≤ 25) (A : FVec Ideal S16x512x512 .f32),
      (∀ i : S16x512x512.Idx, A i = Cert.TapSum.tapAcc K P (i 0).val (i 1).val (i 2).val lo) →
      ∀ i : S16x512x512.Idx, foldTaps K P lo k h A i = Cert.TapSum.tapAcc K P (i 0).val (i 1).val (i 2).val (lo + k)
  | 0, _, A, hA, i => by rw [foldTaps_zero]; exact hA i
  | k + 1, h, A, hA, i => by
    rw [foldTaps_succ, tapStage_apply, foldTaps_apply K P lo k (by omega) A hA i]
    rfl

end Cert.ReferenceIdeal.Stages

end
-- ==== Proof.RefOps0.lean ====
/-
  Operations 1 to 61 of the reference's 132 host operations as a list, in order: the list run as a
  straight line is the program's window `main_part0`, every operation touches TensorCore references only, and
  every operation determines its results.
  What the list leaves in the buffers: the padded image is the image without its unit axis, padded by two zeros on
  each side of its rows and columns; the running sum after tap 10 is taps 0 to 10 applied in order to the zero
  array; the weights and the image are not written.
-/
import proofs.«179604_j76373108457968_1_alg».proof.Proof.Gen.ReferenceIdeal
import proofs.«179604_j76373108457968_1_alg».proof.Proof.RefTap
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- Operations 1 to 61, in order (the called padding function's two operations stand in its call's place). -/
abbrev ops0 : List (HloOp τ sig (Elt F)) :=
  [ reshape main_arg1 main_v0 rfl shapeCasts_S16x1x512x512_S16x512x512,
    nullary main_c (constantI S_ 32 0#32),
    TRef.unary (TRef.of (T := ⟨S_, .i32⟩) main_c) (TRef.of (T := ⟨S_, .f32⟩) main_call0_v0) (sitofp .f32),
    TRef.binary (TRef.of (T := ⟨S16x512x512, .f32⟩) main_v0) (TRef.of (T := ⟨S_, .f32⟩) main_call0_v0) (TRef.of (T := ⟨S16x516x516, .f32⟩) main_v1) (fun x v => pad S16x516x516 ![0, 2, 2] ![0, 2, 2] ![0, 0, 0] x v pads_S16x512x512_S16x516x516_000_220_220 h_S_),
    nullary main_cst (constant S_ .f32 0x00000000#32),
    unary main_cst main_v2 (broadcastInDim S16x512x512 ![] bcast_S_S16x512x512 : (⟨S_, .f32⟩ : BufTy).Contents (Elt F) → (⟨S16x512x512, .f32⟩ : BufTy).Contents (Elt F)),
    unary main_v1 main_v3 ((extractStridedSlice S16x512x512 ![0, 0, 0] · slices_S16x516x516_S16x512x512_0_0_0) : (⟨S16x516x516, .f32⟩ : BufTy).Contents (Elt F) → (⟨S16x512x512, .f32⟩ : BufTy).Contents (Elt F)),
    unary main_arg0 main_v4 ((extractStridedSlice S16x1x512x512 ![0, 0, 0, 0] · slices_S16x25x512x512_S16x1x512x512_0_0_0_0) : (⟨S16x25x512x512, .f32⟩ : BufTy).Contents (Elt F) → (⟨S16x1x512x512, .f32⟩ : BufTy).Contents (Elt F)),
    reshape main_v4 main_v5 rfl shapeCasts_S16x1x512x512_S16x512x512,
    binary main_v5 main_v3 main_v6 (mulf : (⟨S16x512x512, .f32⟩ : BufTy).Contents (Elt F) → (⟨S16x512x512, .f32⟩ : BufTy).Contents (Elt F) → (⟨S16x512x512, .f32⟩ : BufTy).Contents (Elt F)),
    binary main_v2 main_v6 main_v7 (addf : (⟨S16x512x512, .f32⟩ : BufTy).Contents (Elt F) → (⟨S16x512x512, .f32⟩ : BufTy).Contents (Elt F) → (⟨S16x512x512, .f32⟩ : BufTy).Contents (Elt F)),
    unary main_v1 main_v8 ((extractStridedSlice S16x512x512 ![0, 1, 0] · slices_S16x516x516_S16x512x512_0_1_0) : (⟨S16x516x516, .f32⟩ : BufTy).Contents (Elt F) → (⟨S16x512x512, .f32⟩ : BufTy).Contents (Elt F)),
    unary main_arg0 main_v9 ((extractStridedSlice S16x1x512x512 ![0, 1, 0, 0] · slices_S16x25x512x512_S16x1x512x512_0_1_0_0) : (⟨S16x25x512x512, .f32⟩ : BufTy).Contents (Elt F) → (⟨S16x1x512x512, .f32⟩ : BufTy).Contents (Elt F)),
    reshape main_v9 main_v10 rfl shapeCasts_S16x1x512x512_S16x512x512,
    binary main_v10 main_v8 main_v11 (mulf : (⟨S16x512x512, .f32⟩ : BufTy).Contents (Elt F) → (⟨S16x512x512, .f32⟩ : BufTy).Contents (Elt F) → (⟨S16x512x512, .f32⟩ : BufTy).Contents (Elt F)),
    binary main_v7 main_v11 main_v12 (addf : (⟨S16x512x512, .f32⟩ : BufTy).Contents (Elt F) → (⟨S16x512x512, .f32⟩ : BufTy).Contents (Elt F) → (⟨S16x512x512, .f32⟩ : BufTy).Contents (Elt F)),
    unary main_v1 main_v13 ((extractStridedSlice S16x512x512 ![0, 2, 0] · slices_S16x516x516_S16x512x512_0_2_0) : (⟨S16x516x516, .f32⟩ : BufTy).Contents (Elt F) → (⟨S16x512x512, .f32⟩ : BufTy).Contents (Elt F)),
    unary main_arg0 main_v14 ((extractStridedSlice S16x1x512x512 ![0, 2, 0, 0] · slices_S16x25x512x512_S16x1x512x512_0_2_0_0) : (⟨S16x25x512x512, .f32⟩ : BufTy).Contents (Elt F) → (⟨S16x1x512x512, .f32⟩ : BufTy).Contents (Elt F)),
    reshape main_v14 main_v15 rfl shapeCasts_S16x1x512x512_S16x512x512,
    binary main_v15 main_v13 main_v16 (mulf : (⟨S16x512x512, .f32⟩ : BufTy).Contents (Elt F) → (⟨S16x512x512, .f32⟩ : BufTy).Contents (Elt F) → (⟨S16x512x512, .f32⟩ : BufTy).Contents (Elt F)),
    binary main_v12 main_v16 main_v17 (addf : (⟨S16x512x512, .f32⟩ : BufTy).Contents (Elt F) → (⟨S16x512x512, .f32⟩ : BufTy).Contents (Elt F) → (⟨S16x512x512, .f32⟩ : BufTy).Contents (Elt F)),
    unary main_v1 main_v18 ((extractStridedSlice S16x512x512 ![0, 3, 0] · slices_S16x516x516_S16x512x512_0_3_0) : (⟨S16x516x516, .f32⟩ : BufTy).Contents (Elt F) → (⟨S16x512x512, .f32⟩ : BufTy).Contents (Elt F)),
    unary main_arg0 main_v19 ((extractStridedSlice S16x1x512x512 ![0, 3, 0, 0] · slices_S16x25x512x512_S16x1x512x512_0_3_0_0) : (⟨S16x25x512x512, .f32⟩ : BufTy).Contents (Elt F) → (⟨S16x1x512x512, .f32⟩ : BufTy).Contents (Elt F)),
    reshape main_v19 main_v20 rfl shapeCasts_S16x1x512x512_S16x512x512,
    binary main_v20 main_v18 main_v21 (mulf : (⟨S16x512x512, .f32⟩ : BufTy).Contents (Elt F) → (⟨S16x512x512, .f32⟩ : BufTy).Contents (Elt F) → (⟨S16x512x512, .f32⟩ : BufTy).Contents (Elt F)),
    binary main_v17 main_v21 main_v22 (addf : (⟨S16x512x512, .f32⟩ : BufTy).Contents (Elt F) → (⟨S16x512x512, .f32⟩ : BufTy).Contents (Elt F) → (⟨S16x512x512, .f32⟩ : BufTy).Contents (Elt F)),
    unary main_v1 main_v23 ((extractStridedSlice S16x512x512 ![0, 4, 0] · slices_S16x516x516_S16x512x512_0_4_0) : (⟨S16x516x516, .f32⟩ : BufTy).Contents (Elt F) → (⟨S16x512x512, .f32⟩ : BufTy).Contents (Elt F)),
    unary main_arg0 main_v24 ((extractStridedSlice S16x1x512x512 ![0, 4, 0, 0] · slices_S16x25x512x512_S16x1x512x512_0_4_0_0) : (⟨S16x25x512x512, .f32⟩ : BufTy).Contents (Elt F) → (⟨S16x1x512x512, .f32⟩ : BufTy).Contents (Elt F)),
    reshape main_v24 main_v25 rfl shapeCasts_S16x1x512x512_S16x512x512,
    binary main_v25 main_v23 main_v26 (mulf : (⟨S16x512x512, .f32⟩ : BufTy).Contents (Elt F) → (⟨S16x512x512, .f32⟩ : BufTy).Contents (Elt F) → (⟨S16x512x512, .f32⟩ : BufTy).Contents (Elt F)),
    binary main_v22 main_v26 main_v27 (addf : (⟨S16x512x512, .f32⟩ : BufTy).Contents (Elt F) → (⟨S16x512x512, .f32⟩ : BufTy).Contents (Elt F) → (⟨S16x512x512, .f32⟩ : BufTy).Contents (Elt F)),
    unary main_v1 main_v28 ((extractStridedSlice S16x512x512 ![0, 0, 1] · slices_S16x516x516_S16x512x512_0_0_1) : (⟨S16x516x516, .f32⟩ : BufTy).Contents (Elt F) → (⟨S16x512x512, .f32⟩ : BufTy).Contents (Elt F)),
    unary main_arg0 main_v29 ((extractStridedSlice S16x1x512x512 ![0, 5, 0, 0] · slices_S16x25x512x512_S16x1x512x512_0_5_0_0) : (⟨S16x25x512x512, .f32⟩ : BufTy).Contents (Elt F) → (⟨S16x1x512x512, .f32⟩ : BufTy).Contents (Elt F)),
    reshape main_v29 main_v30 rfl shapeCasts_S16x1x512x512_S16x512x512,
    binary main_v30 main_v28 main_v31 (mulf : (⟨S16x512x512, .f32⟩ : BufTy).Contents (Elt F) → (⟨S16x512x512, .f32⟩ : BufTy).Contents (Elt F) → (⟨S16x512x512, .f32⟩ : BufTy).Contents (Elt F)),
    binary main_v27 main_v31 main_v32 (addf : (⟨S16x512x512, .f32⟩ : BufTy).Contents (Elt F) → (⟨S16x512x512, .f32⟩ : BufTy).Contents (Elt F) → (⟨S16x512x512, .f32⟩ : BufTy).Contents (Elt F)),
    unary main_v1 main_v33 ((extractStridedSlice S16x512x512 ![0, 1, 1] · slices_S16x516x516_S16x512x512_0_1_1) : (⟨S16x516x516, .f32⟩ : BufTy).Contents (Elt F) → (⟨S16x512x512, .f32⟩ : BufTy).Contents (Elt F)),
    unary main_arg0 main_v34 ((extractStridedSlice S16x1x512x512 ![0, 6, 0, 0] · slices_S16x25x512x512_S16x1x512x512_0_6_0_0) : (⟨S16x25x512x512, .f32⟩ : BufTy).Contents (Elt F) → (⟨S16x1x512x512, .f32⟩ : BufTy).Contents (Elt F)),
    reshape main_v34 main_v35 rfl shapeCasts_S16x1x512x512_S16x512x512,
    binary main_v35 main_v33 main_v36 (mulf : (⟨S16x512x512, .f32⟩ : BufTy).Contents (Elt F) → (⟨S16x512x512, .f32⟩ : BufTy).Contents (Elt F) → (⟨S16x512x512, .f32⟩ : BufTy).Contents (Elt F)),
    binary main_v32 main_v36 main_v37 (addf : (⟨S16x512x512, .f32⟩ : BufTy).Contents (Elt F) → (⟨S16x512x512, .f32⟩ : BufTy).Contents (Elt F) → (⟨S16x512x512, .f32⟩ : BufTy).Contents (Elt F)),
    unary main_v1 main_v38 ((extractStridedSlice S16x512x512 ![0, 2, 1] · slices_S16x516x516_S16x512x512_0_2_1) : (⟨S16x516x516, .f32⟩ : BufTy).Contents (Elt F) → (⟨S16x512x512, .f32⟩ : BufTy).Contents (Elt F)),
    unary main_arg0 main_v39 ((extractStridedSlice S16x1x512x512 ![0, 7, 0, 0] · slices_S16x25x512x512_S16x1x512x512_0_7_0_0) : (⟨S16x25x512x512, .f32⟩ : BufTy).Contents (Elt F) → (⟨S16x1x512x512, .f32⟩ : BufTy).Contents (Elt F)),
    reshape main_v39 main_v40 rfl shapeCasts_S16x1x512x512_S16x512x512,
    binary main_v40 main_v38 main_v41 (mulf : (⟨S16x512x512, .f32⟩ : BufTy).Contents (Elt F) → (⟨S16x512x512, .f32⟩ : BufTy).Contents (Elt F) → (⟨S16x512x512, .f32⟩ : BufTy).Contents (Elt F)),
    binary main_v37 main_v41 main_v42 (addf : (⟨S16x512x512, .f32⟩ : BufTy).Contents (Elt F) → (⟨S16x512x512, .f32⟩ : BufTy).Contents (Elt F) → (⟨S16x512x512, .f32⟩ : BufTy).Contents (Elt F)),
    unary main_v1 main_v43 ((extractStridedSlice S16x512x512 ![0, 3, 1] · slices_S16x516x516_S16x512x512_0_3_1) : (⟨S16x516x516, .f32⟩ : BufTy).Contents (Elt F) → (⟨S16x512x512, .f32⟩ : BufTy).Contents (Elt F)),
    unary main_arg0 main_v44 ((extractStridedSlice S16x1x512x512 ![0, 8, 0, 0] · slices_S16x25x512x512_S16x1x512x512_0_8_0_0) : (⟨S16x25x512x512, .f32⟩ : BufTy).Contents (Elt F) → (⟨S16x1x512x512, .f32⟩ : BufTy).Contents (Elt F)),
    reshape main_v44 main_v45 rfl shapeCasts_S16x1x512x512_S16x512x512,
    binary main_v45 main_v43 main_v46 (mulf : (⟨S16x512x512, .f32⟩ : BufTy).Contents (Elt F) → (⟨S16x512x512, .f32⟩ : BufTy).Contents (Elt F) → (⟨S16x512x512, .f32⟩ : BufTy).Contents (Elt F)),
    binary main_v42 main_v46 main_v47 (addf : (⟨S16x512x512, .f32⟩ : BufTy).Contents (Elt F) → (⟨S16x512x512, .f32⟩ : BufTy).Contents (Elt F) → (⟨S16x512x512, .f32⟩ : BufTy).Contents (Elt F)),
    unary main_v1 main_v48 ((extractStridedSlice S16x512x512 ![0, 4, 1] · slices_S16x516x516_S16x512x512_0_4_1) : (⟨S16x516x516, .f32⟩ : BufTy).Contents (Elt F) → (⟨S16x512x512, .f32⟩ : BufTy).Contents (Elt F)),
    unary main_arg0 main_v49 ((extractStridedSlice S16x1x512x512 ![0, 9, 0, 0] · slices_S16x25x512x512_S16x1x512x512_0_9_0_0) : (⟨S16x25x512x512, .f32⟩ : BufTy).Contents (Elt F) → (⟨S16x1x512x512, .f32⟩ : BufTy).Contents (Elt F)),
    reshape main_v49 main_v50 rfl shapeCasts_S16x1x512x512_S16x512x512,
    binary main_v50 main_v48 main_v51 (mulf : (⟨S16x512x512, .f32⟩ : BufTy).Contents (Elt F) → (⟨S16x512x512, .f32⟩ : BufTy).Contents (Elt F) → (⟨S16x512x512, .f32⟩ : BufTy).Contents (Elt F)),
    binary main_v47 main_v51 main_v52 (addf : (⟨S16x512x512, .f32⟩ : BufTy).Contents (Elt F) → (⟨S16x512x512, .f32⟩ : BufTy).Contents (Elt F) → (⟨S16x512x512, .f32⟩ : BufTy).Contents (Elt F)),
    unary main_v1 main_v53 ((extractStridedSlice S16x512x512 ![0, 0, 2] · slices_S16x516x516_S16x512x512_0_0_2) : (⟨S16x516x516, .f32⟩ : BufTy).Contents (Elt F) → (⟨S16x512x512, .f32⟩ : BufTy).Contents (Elt F)),
    unary main_arg0 main_v54 ((extractStridedSlice S16x1x512x512 ![0, 10, 0, 0] · slices_S16x25x512x512_S16x1x512x512_0_10_0_0) : (⟨S16x25x512x512, .f32⟩ : BufTy).Contents (Elt F) → (⟨S16x1x512x512, .f32⟩ : BufTy).Contents (Elt F)),
    reshape main_v54 main_v55 rfl shapeCasts_S16x1x512x512_S16x512x512,
    binary main_v55 main_v53 main_v56 (mulf : (⟨S16x512x512, .f32⟩ : BufTy).Contents (Elt F) → (⟨S16x512x512, .f32⟩ : BufTy).Contents (Elt F) → (⟨S16x512x512, .f32⟩ : BufTy).Contents (Elt F)),
    binary main_v52 main_v56 main_v57 (addf : (⟨S16x512x512, .f32⟩ : BufTy).Contents (Elt F) → (⟨S16x512x512, .f32⟩ : BufTy).Contents (Elt F) → (⟨S16x512x512, .f32⟩ : BufTy).Contents (Elt F)) ]

set_option maxRecDepth 8192 in
set_option maxHeartbeats 4000000 in
theorem part0_eq (c : Dev nD) : main_part0 (F := F) c = seq ops0 := rfl

set_option maxRecDepth 8192 in
theorem ops0_sub : (ops0 : List (HloOp τ sig (Elt F))).Forall fun op => op.bufs ⊆ tcRefs τ sig :=
  ⟨reshape_bufs_sub .., nullary_bufs_sub .., unary_bufs_sub .., binary_bufs_sub .., nullary_bufs_sub .., unary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub ..⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ## What the operations leave -/

/-- The padded image, from the launch's image: the unit axis dropped, two rows and columns of the converted
    integer zero on each side. -/
abbrev padded (X : FVec F S16x1x512x512 .f32) : FVec F S16x516x516 .f32 :=
  pad S16x516x516 ![0, 2, 2] ![0, 2, 2] ![0, 0, 0] (shapeCast S16x512x512 X shapeCasts_S16x1x512x512_S16x512x512)
    (sitofp (F := F) .f32 (constantI S_ 32 0#32)) pads_S16x512x512_S16x516x516_000_220_220 h_S_

/-- The zero array the sum starts from. -/
abbrev zeroSum : FVec F S16x512x512 .f32 :=
  broadcastInDim S16x512x512 ![] bcast_S_S16x512x512 (constant (F := F) S_ .f32 0x00000000#32)

/-- The padded image's buffer. -/
theorem ops0_v1 (V : Valuation τ sig (Elt F)) :
    after ops0 V (Proc.devRef .tc main_v1) = padded (V (Proc.devRef .tc main_arg1)) := by
  after_results_simp <;> rfl

/-- The running sum after tap 10: taps 0 to 10 applied, in order, to the zero array. -/
theorem ops0_v57 (V : Valuation τ sig (Elt F)) :
    after ops0 V (Proc.devRef .tc main_v57)
      = foldTaps (V (Proc.devRef .tc main_arg0)) (padded (V (Proc.devRef .tc main_arg1))) 0 11 (by omega) zeroSum := by
  after_results_simp <;> rfl

theorem ops0_arg0 (V : Valuation τ sig (Elt F)) : after ops0 V (Proc.devRef .tc main_arg0) = V (Proc.devRef .tc main_arg0) := by
  after_results_simp

theorem ops0_arg1 (V : Valuation τ sig (Elt F)) : after ops0 V (Proc.devRef .tc main_arg1) = V (Proc.devRef .tc main_arg1) := by
  after_results_simp

end Cert.ReferenceIdeal.Stages

end
-- ==== Proof.RefOps1.lean ====
/-
  Operations 62 to 121 of the reference's 132 host operations as a list, in order: the list run as a
  straight line is the program's window `main_part1`, every operation touches TensorCore references only, and
  every operation determines its results.
  What the list leaves in the buffers: the running sum after tap 22 is taps 11 to 22 applied in order to the running
  sum after tap 10; the weights, the image and the padded image are not written.
-/
import proofs.«179604_j76373108457968_1_alg».proof.Proof.Gen.ReferenceIdeal
import proofs.«179604_j76373108457968_1_alg».proof.Proof.RefTap
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- Operations 62 to 121, in order. -/
abbrev ops1 : List (HloOp τ sig (Elt F)) :=
  [ unary main_v1 main_v58 ((extractStridedSlice S16x512x512 ![0, 1, 2] · slices_S16x516x516_S16x512x512_0_1_2) : (⟨S16x516x516, .f32⟩ : BufTy).Contents (Elt F) → (⟨S16x512x512, .f32⟩ : BufTy).Contents (Elt F)),
    unary main_arg0 main_v59 ((extractStridedSlice S16x1x512x512 ![0, 11, 0, 0] · slices_S16x25x512x512_S16x1x512x512_0_11_0_0) : (⟨S16x25x512x512, .f32⟩ : BufTy).Contents (Elt F) → (⟨S16x1x512x512, .f32⟩ : BufTy).Contents (Elt F)),
    reshape main_v59 main_v60 rfl shapeCasts_S16x1x512x512_S16x512x512,
    binary main_v60 main_v58 main_v61 (mulf : (⟨S16x512x512, .f32⟩ : BufTy).Contents (Elt F) → (⟨S16x512x512, .f32⟩ : BufTy).Contents (Elt F) → (⟨S16x512x512, .f32⟩ : BufTy).Contents (Elt F)),
    binary main_v57 main_v61 main_v62 (addf : (⟨S16x512x512, .f32⟩ : BufTy).Contents (Elt F) → (⟨S16x512x512, .f32⟩ : BufTy).Contents (Elt F) → (⟨S16x512x512, .f32⟩ : BufTy).Contents (Elt F)),
    unary main_v1 main_v63 ((extractStridedSlice S16x512x512 ![0, 2, 2] · slices_S16x516x516_S16x512x512_0_2_2) : (⟨S16x516x516, .f32⟩ : BufTy).Contents (Elt F) → (⟨S16x512x512, .f32⟩ : BufTy).Contents (Elt F)),
    unary main_arg0 main_v64 ((extractStridedSlice S16x1x512x512 ![0, 12, 0, 0] · slices_S16x25x512x512_S16x1x512x512_0_12_0_0) : (⟨S16x25x512x512, .f32⟩ : BufTy).Contents (Elt F) → (⟨S16x1x512x512, .f32⟩ : BufTy).Contents (Elt F)),
    reshape main_v64 main_v65 rfl shapeCasts_S16x1x512x512_S16x512x512,
    binary main_v65 main_v63 main_v66 (mulf : (⟨S16x512x512, .f32⟩ : BufTy).Contents (Elt F) → (⟨S16x512x512, .f32⟩ : BufTy).Contents (Elt F) → (⟨S16x512x512, .f32⟩ : BufTy).Contents (Elt F)),
    binary main_v62 main_v66 main_v67 (addf : (⟨S16x512x512, .f32⟩ : BufTy).Contents (Elt F) → (⟨S16x512x512, .f32⟩ : BufTy).Contents (Elt F) → (⟨S16x512x512, .f32⟩ : BufTy).Contents (Elt F)),
    unary main_v1 main_v68 ((extractStridedSlice S16x512x512 ![0, 3, 2] · slices_S16x516x516_S16x512x512_0_3_2) : (⟨S16x516x516, .f32⟩ : BufTy).Contents (Elt F) → (⟨S16x512x512, .f32⟩ : BufTy).Contents (Elt F)),
    unary main_arg0 main_v69 ((extractStridedSlice S16x1x512x512 ![0, 13, 0, 0] · slices_S16x25x512x512_S16x1x512x512_0_13_0_0) : (⟨S16x25x512x512, .f32⟩ : BufTy).Contents (Elt F) → (⟨S16x1x512x512, .f32⟩ : BufTy).Contents (Elt F)),
    reshape main_v69 main_v70 rfl shapeCasts_S16x1x512x512_S16x512x512,
    binary main_v70 main_v68 main_v71 (mulf : (⟨S16x512x512, .f32⟩ : BufTy).Contents (Elt F) → (⟨S16x512x512, .f32⟩ : BufTy).Contents (Elt F) → (⟨S16x512x512, .f32⟩ : BufTy).Contents (Elt F)),
    binary main_v67 main_v71 main_v72 (addf : (⟨S16x512x512, .f32⟩ : BufTy).Contents (Elt F) → (⟨S16x512x512, .f32⟩ : BufTy).Contents (Elt F) → (⟨S16x512x512, .f32⟩ : BufTy).Contents (Elt F)),
    unary main_v1 main_v73 ((extractStridedSlice S16x512x512 ![0, 4, 2] · slices_S16x516x516_S16x512x512_0_4_2) : (⟨S16x516x516, .f32⟩ : BufTy).Contents (Elt F) → (⟨S16x512x512, .f32⟩ : BufTy).Contents (Elt F)),
    unary main_arg0 main_v74 ((extractStridedSlice S16x1x512x512 ![0, 14, 0, 0] · slices_S16x25x512x512_S16x1x512x512_0_14_0_0) : (⟨S16x25x512x512, .f32⟩ : BufTy).Contents (Elt F) → (⟨S16x1x512x512, .f32⟩ : BufTy).Contents (Elt F)),
    reshape main_v74 main_v75 rfl shapeCasts_S16x1x512x512_S16x512x512,
    binary main_v75 main_v73 main_v76 (mulf : (⟨S16x512x512, .f32⟩ : BufTy).Contents (Elt F) → (⟨S16x512x512, .f32⟩ : BufTy).Contents (Elt F) → (⟨S16x512x512, .f32⟩ : BufTy).Contents (Elt F)),
    binary main_v72 main_v76 main_v77 (addf : (⟨S16x512x512, .f32⟩ : BufTy).Contents (Elt F) → (⟨S16x512x512, .f32⟩ : BufTy).Contents (Elt F) → (⟨S16x512x512, .f32⟩ : BufTy).Contents (Elt F)),
    unary main_v1 main_v78 ((extractStridedSlice S16x512x512 ![0, 0, 3] · slices_S16x516x516_S16x512x512_0_0_3) : (⟨S16x516x516, .f32⟩ : BufTy).Contents (Elt F) → (⟨S16x512x512, .f32⟩ : BufTy).Contents (Elt F)),
    unary main_arg0 main_v79 ((extractStridedSlice S16x1x512x512 ![0, 15, 0, 0] · slices_S16x25x512x512_S16x1x512x512_0_15_0_0) : (⟨S16x25x512x512, .f32⟩ : BufTy).Contents (Elt F) → (⟨S16x1x512x512, .f32⟩ : BufTy).Contents (Elt F)),
    reshape main_v79 main_v80 rfl shapeCasts_S16x1x512x512_S16x512x512,
    binary main_v80 main_v78 main_v81 (mulf : (⟨S16x512x512, .f32⟩ : BufTy).Contents (Elt F) → (⟨S16x512x512, .f32⟩ : BufTy).Contents (Elt F) → (⟨S16x512x512, .f32⟩ : BufTy).Contents (Elt F)),
    binary main_v77 main_v81 main_v82 (addf : (⟨S16x512x512, .f32⟩ : BufTy).Contents (Elt F) → (⟨S16x512x512, .f32⟩ : BufTy).Contents (Elt F) → (⟨S16x512x512, .f32⟩ : BufTy).Contents (Elt F)),
    unary main_v1 main_v83 ((extractStridedSlice S16x512x512 ![0, 1, 3] · slices_S16x516x516_S16x512x512_0_1_3) : (⟨S16x516x516, .f32⟩ : BufTy).Contents (Elt F) → (⟨S16x512x512, .f32⟩ : BufTy).Contents (Elt F)),
    unary main_arg0 main_v84 ((extractStridedSlice S16x1x512x512 ![0, 16, 0, 0] · slices_S16x25x512x512_S16x1x512x512_0_16_0_0) : (⟨S16x25x512x512, .f32⟩ : BufTy).Contents (Elt F) → (⟨S16x1x512x512, .f32⟩ : BufTy).Contents (Elt F)),
    reshape main_v84 main_v85 rfl shapeCasts_S16x1x512x512_S16x512x512,
    binary main_v85 main_v83 main_v86 (mulf : (⟨S16x512x512, .f32⟩ : BufTy).Contents (Elt F) → (⟨S16x512x512, .f32⟩ : BufTy).Contents (Elt F) → (⟨S16x512x512, .f32⟩ : BufTy).Contents (Elt F)),
    binary main_v82 main_v86 main_v87 (addf : (⟨S16x512x512, .f32⟩ : BufTy).Contents (Elt F) → (⟨S16x512x512, .f32⟩ : BufTy).Contents (Elt F) → (⟨S16x512x512, .f32⟩ : BufTy).Contents (Elt F)),
    unary main_v1 main_v88 ((extractStridedSlice S16x512x512 ![0, 2, 3] · slices_S16x516x516_S16x512x512_0_2_3) : (⟨S16x516x516, .f32⟩ : BufTy).Contents (Elt F) → (⟨S16x512x512, .f32⟩ : BufTy).Contents (Elt F)),
    unary main_arg0 main_v89 ((extractStridedSlice S16x1x512x512 ![0, 17, 0, 0] · slices_S16x25x512x512_S16x1x512x512_0_17_0_0) : (⟨S16x25x512x512, .f32⟩ : BufTy).Contents (Elt F) → (⟨S16x1x512x512, .f32⟩ : BufTy).Contents (Elt F)),
    reshape main_v89 main_v90 rfl shapeCasts_S16x1x512x512_S16x512x512,
    binary main_v90 main_v88 main_v91 (mulf : (⟨S16x512x512, .f32⟩ : BufTy).Contents (Elt F) → (⟨S16x512x512, .f32⟩ : BufTy).Contents (Elt F) → (⟨S16x512x512, .f32⟩ : BufTy).Contents (Elt F)),
    binary main_v87 main_v91 main_v92 (addf : (⟨S16x512x512, .f32⟩ : BufTy).Contents (Elt F) → (⟨S16x512x512, .f32⟩ : BufTy).Contents (Elt F) → (⟨S16x512x512, .f32⟩ : BufTy).Contents (Elt F)),
    unary main_v1 main_v93 ((extractStridedSlice S16x512x512 ![0, 3, 3] · slices_S16x516x516_S16x512x512_0_3_3) : (⟨S16x516x516, .f32⟩ : BufTy).Contents (Elt F) → (⟨S16x512x512, .f32⟩ : BufTy).Contents (Elt F)),
    unary main_arg0 main_v94 ((extractStridedSlice S16x1x512x512 ![0, 18, 0, 0] · slices_S16x25x512x512_S16x1x512x512_0_18_0_0) : (⟨S16x25x512x512, .f32⟩ : BufTy).Contents (Elt F) → (⟨S16x1x512x512, .f32⟩ : BufTy).Contents (Elt F)),
    reshape main_v94 main_v95 rfl shapeCasts_S16x1x512x512_S16x512x512,
    binary main_v95 main_v93 main_v96 (mulf : (⟨S16x512x512, .f32⟩ : BufTy).Contents (Elt F) → (⟨S16x512x512, .f32⟩ : BufTy).Contents (Elt F) → (⟨S16x512x512, .f32⟩ : BufTy).Contents (Elt F)),
    binary main_v92 main_v96 main_v97 (addf : (⟨S16x512x512, .f32⟩ : BufTy).Contents (Elt F) → (⟨S16x512x512, .f32⟩ : BufTy).Contents (Elt F) → (⟨S16x512x512, .f32⟩ : BufTy).Contents (Elt F)),
    unary main_v1 main_v98 ((extractStridedSlice S16x512x512 ![0, 4, 3] · slices_S16x516x516_S16x512x512_0_4_3) : (⟨S16x516x516, .f32⟩ : BufTy).Contents (Elt F) → (⟨S16x512x512, .f32⟩ : BufTy).Contents (Elt F)),
    unary main_arg0 main_v99 ((extractStridedSlice S16x1x512x512 ![0, 19, 0, 0] · slices_S16x25x512x512_S16x1x512x512_0_19_0_0) : (⟨S16x25x512x512, .f32⟩ : BufTy).Contents (Elt F) → (⟨S16x1x512x512, .f32⟩ : BufTy).Contents (Elt F)),
    reshape main_v99 main_v100 rfl shapeCasts_S16x1x512x512_S16x512x512,
    binary main_v100 main_v98 main_v101 (mulf : (⟨S16x512x512, .f32⟩ : BufTy).Contents (Elt F) → (⟨S16x512x512, .f32⟩ : BufTy).Contents (Elt F) → (⟨S16x512x512, .f32⟩ : BufTy).Contents (Elt F)),
    binary main_v97 main_v101 main_v102 (addf : (⟨S16x512x512, .f32⟩ : BufTy).Contents (Elt F) → (⟨S16x512x512, .f32⟩ : BufTy).Contents (Elt F) → (⟨S16x512x512, .f32⟩ : BufTy).Contents (Elt F)),
    unary main_v1 main_v103 ((extractStridedSlice S16x512x512 ![0, 0, 4] · slices_S16x516x516_S16x512x512_0_0_4) : (⟨S16x516x516, .f32⟩ : BufTy).Contents (Elt F) → (⟨S16x512x512, .f32⟩ : BufTy).Contents (Elt F)),
    unary main_arg0 main_v104 ((extractStridedSlice S16x1x512x512 ![0, 20, 0, 0] · slices_S16x25x512x512_S16x1x512x512_0_20_0_0) : (⟨S16x25x512x512, .f32⟩ : BufTy).Contents (Elt F) → (⟨S16x1x512x512, .f32⟩ : BufTy).Contents (Elt F)),
    reshape main_v104 main_v105 rfl shapeCasts_S16x1x512x512_S16x512x512,
    binary main_v105 main_v103 main_v106 (mulf : (⟨S16x512x512, .f32⟩ : BufTy).Contents (Elt F) → (⟨S16x512x512, .f32⟩ : BufTy).Contents (Elt F) → (⟨S16x512x512, .f32⟩ : BufTy).Contents (Elt F)),
    binary main_v102 main_v106 main_v107 (addf : (⟨S16x512x512, .f32⟩ : BufTy).Contents (Elt F) → (⟨S16x512x512, .f32⟩ : BufTy).Contents (Elt F) → (⟨S16x512x512, .f32⟩ : BufTy).Contents (Elt F)),
    unary main_v1 main_v108 ((extractStridedSlice S16x512x512 ![0, 1, 4] · slices_S16x516x516_S16x512x512_0_1_4) : (⟨S16x516x516, .f32⟩ : BufTy).Contents (Elt F) → (⟨S16x512x512, .f32⟩ : BufTy).Contents (Elt F)),
    unary main_arg0 main_v109 ((extractStridedSlice S16x1x512x512 ![0, 21, 0, 0] · slices_S16x25x512x512_S16x1x512x512_0_21_0_0) : (⟨S16x25x512x512, .f32⟩ : BufTy).Contents (Elt F) → (⟨S16x1x512x512, .f32⟩ : BufTy).Contents (Elt F)),
    reshape main_v109 main_v110 rfl shapeCasts_S16x1x512x512_S16x512x512,
    binary main_v110 main_v108 main_v111 (mulf : (⟨S16x512x512, .f32⟩ : BufTy).Contents (Elt F) → (⟨S16x512x512, .f32⟩ : BufTy).Contents (Elt F) → (⟨S16x512x512, .f32⟩ : BufTy).Contents (Elt F)),
    binary main_v107 main_v111 main_v112 (addf : (⟨S16x512x512, .f32⟩ : BufTy).Contents (Elt F) → (⟨S16x512x512, .f32⟩ : BufTy).Contents (Elt F) → (⟨S16x512x512, .f32⟩ : BufTy).Contents (Elt F)),
    unary main_v1 main_v113 ((extractStridedSlice S16x512x512 ![0, 2, 4] · slices_S16x516x516_S16x512x512_0_2_4) : (⟨S16x516x516, .f32⟩ : BufTy).Contents (Elt F) → (⟨S16x512x512, .f32⟩ : BufTy).Contents (Elt F)),
    unary main_arg0 main_v114 ((extractStridedSlice S16x1x512x512 ![0, 22, 0, 0] · slices_S16x25x512x512_S16x1x512x512_0_22_0_0) : (⟨S16x25x512x512, .f32⟩ : BufTy).Contents (Elt F) → (⟨S16x1x512x512, .f32⟩ : BufTy).Contents (Elt F)),
    reshape main_v114 main_v115 rfl shapeCasts_S16x1x512x512_S16x512x512,
    binary main_v115 main_v113 main_v116 (mulf : (⟨S16x512x512, .f32⟩ : BufTy).Contents (Elt F) → (⟨S16x512x512, .f32⟩ : BufTy).Contents (Elt F) → (⟨S16x512x512, .f32⟩ : BufTy).Contents (Elt F)),
    binary main_v112 main_v116 main_v117 (addf : (⟨S16x512x512, .f32⟩ : BufTy).Contents (Elt F) → (⟨S16x512x512, .f32⟩ : BufTy).Contents (Elt F) → (⟨S16x512x512, .f32⟩ : BufTy).Contents (Elt F)) ]

set_option maxRecDepth 8192 in
set_option maxHeartbeats 4000000 in
theorem part1_eq (c : Dev nD) : main_part1 (F := F) c = seq ops1 := rfl

set_option maxRecDepth 8192 in
theorem ops1_sub : (ops1 : List (HloOp τ sig (Elt F))).Forall fun op => op.bufs ⊆ tcRefs τ sig :=
  ⟨unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub ..⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ## What the operations leave -/

set_option maxHeartbeats 4000000 in
/-- The running sum after tap 22: taps 11 to 22 applied, in order, to the running sum after tap 10. -/
theorem ops1_v117 (V : Valuation τ sig (Elt F)) :
    after ops1 V (Proc.devRef .tc main_v117)
      = foldTaps (V (Proc.devRef .tc main_arg0)) (V (Proc.devRef .tc main_v1)) 11 12 (by omega) (V (Proc.devRef .tc main_v57)) := by
  after_results_simp <;> rfl

theorem ops1_arg0 (V : Valuation τ sig (Elt F)) : after ops1 V (Proc.devRef .tc main_arg0) = V (Proc.devRef .tc main_arg0) := by
  after_results_simp

theorem ops1_arg1 (V : Valuation τ sig (Elt F)) : after ops1 V (Proc.devRef .tc main_arg1) = V (Proc.devRef .tc main_arg1) := by
  after_results_simp

theorem ops1_v1 (V : Valuation τ sig (Elt F)) : after ops1 V (Proc.devRef .tc main_v1) = V (Proc.devRef .tc main_v1) := by
  after_results_simp

end Cert.ReferenceIdeal.Stages

end
-- ==== Proof.RefOps2.lean ====
/-
  Operations 122 to 132 of the reference's 132 host operations as a list, in order: the list run as a
  straight line is the program's window `main_part2`, every operation touches TensorCore references only, and
  every operation determines its results.
  What the list leaves in the buffers: the result is the running sum after tap 24 — taps 23 and 24 applied to the
  running sum after tap 22 — with a leading unit axis; the weights and the image are not written.
-/
import proofs.«179604_j76373108457968_1_alg».proof.Proof.Gen.ReferenceIdeal
import proofs.«179604_j76373108457968_1_alg».proof.Proof.RefTap
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- Operations 122 to 132, in order. -/
abbrev ops2 : List (HloOp τ sig (Elt F)) :=
  [ unary main_v1 main_v118 ((extractStridedSlice S16x512x512 ![0, 3, 4] · slices_S16x516x516_S16x512x512_0_3_4) : (⟨S16x516x516, .f32⟩ : BufTy).Contents (Elt F) → (⟨S16x512x512, .f32⟩ : BufTy).Contents (Elt F)),
    unary main_arg0 main_v119 ((extractStridedSlice S16x1x512x512 ![0, 23, 0, 0] · slices_S16x25x512x512_S16x1x512x512_0_23_0_0) : (⟨S16x25x512x512, .f32⟩ : BufTy).Contents (Elt F) → (⟨S16x1x512x512, .f32⟩ : BufTy).Contents (Elt F)),
    reshape main_v119 main_v120 rfl shapeCasts_S16x1x512x512_S16x512x512,
    binary main_v120 main_v118 main_v121 (mulf : (⟨S16x512x512, .f32⟩ : BufTy).Contents (Elt F) → (⟨S16x512x512, .f32⟩ : BufTy).Contents (Elt F) → (⟨S16x512x512, .f32⟩ : BufTy).Contents (Elt F)),
    binary main_v117 main_v121 main_v122 (addf : (⟨S16x512x512, .f32⟩ : BufTy).Contents (Elt F) → (⟨S16x512x512, .f32⟩ : BufTy).Contents (Elt F) → (⟨S16x512x512, .f32⟩ : BufTy).Contents (Elt F)),
    unary main_v1 main_v123 ((extractStridedSlice S16x512x512 ![0, 4, 4] · slices_S16x516x516_S16x512x512_0_4_4) : (⟨S16x516x516, .f32⟩ : BufTy).Contents (Elt F) → (⟨S16x512x512, .f32⟩ : BufTy).Contents (Elt F)),
    unary main_arg0 main_v124 ((extractStridedSlice S16x1x512x512 ![0, 24, 0, 0] · slices_S16x25x512x512_S16x1x512x512_0_24_0_0) : (⟨S16x25x512x512, .f32⟩ : BufTy).Contents (Elt F) → (⟨S16x1x512x512, .f32⟩ : BufTy).Contents (Elt F)),
    reshape main_v124 main_v125 rfl shapeCasts_S16x1x512x512_S16x512x512,
    binary main_v125 main_v123 main_v126 (mulf : (⟨S16x512x512, .f32⟩ : BufTy).Contents (Elt F) → (⟨S16x512x512, .f32⟩ : BufTy).Contents (Elt F) → (⟨S16x512x512, .f32⟩ : BufTy).Contents (Elt F)),
    binary main_v122 main_v126 main_v127 (addf : (⟨S16x512x512, .f32⟩ : BufTy).Contents (Elt F) → (⟨S16x512x512, .f32⟩ : BufTy).Contents (Elt F) → (⟨S16x512x512, .f32⟩ : BufTy).Contents (Elt F)),
    unary main_v127 main_v128 (broadcastInDim S1x16x512x512 ![1, 2, 3] bcast_S16x512x512_S1x16x512x512_1_2_3 : (⟨S16x512x512, .f32⟩ : BufTy).Contents (Elt F) → (⟨S1x16x512x512, .f32⟩ : BufTy).Contents (Elt F)) ]

set_option maxRecDepth 8192 in
set_option maxHeartbeats 4000000 in
theorem part2_eq (c : Dev nD) : main_part2 (F := F) c = seq ops2 := rfl

set_option maxRecDepth 8192 in
theorem ops2_sub : (ops2 : List (HloOp τ sig (Elt F))).Forall fun op => op.bufs ⊆ tcRefs τ sig :=
  ⟨unary_bufs_sub .., unary_bufs_sub .., reshape_bufs_sub .., binary_bufs_sub .., binary_bufs_sub .., unary_bufs_sub .., unary_bufs_sub .., reshape_bufs_sub .., binary_bufs_sub .., binary_bufs_sub .., unary_bufs_sub ..⟩

set_option maxRecDepth 8192 in
theorem ops2_fresh : (ops2 : List (HloOp τ sig (Elt F))).Forall fun op => op.fresh = ∅ :=
  ⟨rfl, rfl, rfl, rfl, rfl, rfl, rfl, rfl, rfl, rfl, rfl⟩

/-! ## What the operations leave -/

/-- The result: taps 23 and 24 applied to the running sum after tap 22, then a leading unit axis. -/
theorem ops2_v128 (V : Valuation τ sig (Elt F)) :
    after ops2 V (Proc.devRef .tc main_v128)
      = broadcastInDim S1x16x512x512 ![1, 2, 3] bcast_S16x512x512_S1x16x512x512_1_2_3
          (foldTaps (V (Proc.devRef .tc main_arg0)) (V (Proc.devRef .tc main_v1)) 23 2 (by omega) (V (Proc.devRef .tc main_v117))) := by
  after_results_simp <;> rfl

theorem ops2_arg0 (V : Valuation τ sig (Elt F)) : after ops2 V (Proc.devRef .tc main_arg0) = V (Proc.devRef .tc main_arg0) := by
  after_results_simp

theorem ops2_arg1 (V : Valuation τ sig (Elt F)) : after ops2 V (Proc.devRef .tc main_arg1) = V (Proc.devRef .tc main_arg1) := by
  after_results_simp

end Cert.ReferenceIdeal.Stages

end
-- ==== Proof.RefLine.lean ====
/-
  The reference's 132 operations as ONE line, and what the line leaves in the result buffer.

  The program is three windows run in order; each window is a list of host operations run as a straight line, so
  the whole program is the three lists' concatenation run as one line, and what a buffer holds at the end is the
  lists' results folded over the launch's contents.  Window by window: the first leaves the padded image and the
  running sum of taps 0 to 10 from the zero array, the second the running sum through tap 22, the third the sum of
  all 25 taps with a leading unit axis.  At the ideal instance a run of taps from the sum of the first `lo` taps
  is the sum of the first `lo + k` taps at every pixel, which is the specification's `conv`.
-/
import proofs.«179604_j76373108457968_1_alg».proof.Proof.Gen.ReferenceIdeal
import proofs.«179604_j76373108457968_1_alg».proof.Proof.TapSum
import proofs.«179604_j76373108457968_1_alg».proof.Proof.RefTap
import proofs.«179604_j76373108457968_1_alg».proof.Proof.RefOps0
import proofs.«179604_j76373108457968_1_alg».proof.Proof.RefOps1
import proofs.«179604_j76373108457968_1_alg».proof.Proof.RefOps2
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo
open Idealize.ShloMosaic.ValueIdx

section Generic

variable {F : FTy → Type} [FloatOps F]

/-- What two lines leave, run one after the other, is what the second leaves from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- The program's 132 operations, in order: the three windows' lists. -/
abbrev ops : List (HloOp τ sig (Elt F)) := ops0 ++ (ops1 ++ ops2)

theorem main_eq (c : Dev nD) : main (F := F) c = seq ops := by
  show main (F := F) c = seq (ops0 ++ (ops1 ++ ops2))
  rw [seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append ops0_sub (forall_append ops1_sub ops2_sub)

theorem ops_fresh : (ops : List (HloOp τ sig (Elt F))).Forall fun op => op.fresh = ∅ :=
  forall_append ops0_fresh (forall_append ops1_fresh ops2_fresh)

/-- On every device, for any float values, from any memory with zero counters: every weakly fair execution of the
    program terminates with each buffer at the operations' results folded over the launch's contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.mp ops_fresh)

/-- The result buffer after the whole line: all 25 taps applied in order to the zero array over the padded image,
    then a leading unit axis. -/
theorem after_ops_v128 (V : Valuation τ sig (Elt F)) :
    after ops V (Proc.devRef .tc main_v128)
      = broadcastInDim S1x16x512x512 ![1, 2, 3] bcast_S16x512x512_S1x16x512x512_1_2_3
          (foldTaps (V (Proc.devRef .tc main_arg0)) (padded (V (Proc.devRef .tc main_arg1))) 23 2 (by omega)
            (foldTaps (V (Proc.devRef .tc main_arg0)) (padded (V (Proc.devRef .tc main_arg1))) 11 12 (by omega)
              (foldTaps (V (Proc.devRef .tc main_arg0)) (padded (V (Proc.devRef .tc main_arg1))) 0 11 (by omega) zeroSum))) := by
  show after (ops0 ++ (ops1 ++ ops2)) V _ = _
  rw [after_append, after_append, ops2_v128, ops1_arg0, ops1_v1, ops1_v117, ops0_arg0, ops0_v1, ops0_v57]

/-- The weights' buffer is not written. -/
theorem after_ops_arg0 (V : Valuation τ sig (Elt F)) :
    after ops V (Proc.devRef .tc main_arg0) = V (Proc.devRef .tc main_arg0) := by
  show after (ops0 ++ (ops1 ++ ops2)) V _ = _
  rw [after_append, after_append, ops2_arg0, ops1_arg0, ops0_arg0]

/-- The image's buffer is not written. -/
theorem after_ops_arg1 (V : Valuation τ sig (Elt F)) :
    after ops V (Proc.devRef .tc main_arg1) = V (Proc.devRef .tc main_arg1) := by
  show after (ops0 ++ (ops1 ++ ops2)) V _ = _
  rw [after_append, after_append, ops2_arg1, ops1_arg1, ops0_arg1]

end Generic

/-! ## At the ideal instance -/

/-- All 25 taps from the zero array, in the three windows' runs, are the specification's convolution. -/
theorem taps_eq_conv (K : FVec Ideal S16x25x512x512 .f32) (P : FVec Ideal S16x516x516 .f32) :
    foldTaps K P 23 2 (by omega) (foldTaps K P 11 12 (by omega) (foldTaps K P 0 11 (by omega) (zeroSum (F := Ideal))))
      = Cert.TapSum.conv K P := by
  funext i
  rw [Cert.TapSum.conv_apply]
  exact foldTaps_apply K P 23 2 _ _
    (foldTaps_apply K P 11 12 _ _ (foldTaps_apply K P 0 11 _ _ (fun _ => rfl))) i

/-- The result buffer after the whole line, at the ideal instance: the specification's convolution of the weights
    with the padded image, with a leading unit axis. -/
theorem after_ops_v128_ideal (V : Valuation τ sig (Elt Ideal)) :
    after ops V (Proc.devRef .tc main_v128)
      = broadcastInDim S1x16x512x512 ![1, 2, 3] bcast_S16x512x512_S1x16x512x512_1_2_3
          (Cert.TapSum.conv (V (Proc.devRef .tc main_arg0)) (padded (V (Proc.devRef .tc main_arg1)))) := by
  refine (after_ops_v128 V).trans ?_
  rw [taps_eq_conv]

end Cert.ReferenceIdeal.Stages

end
-- ==== Proof.RefRun.lean ====
/-
  The reference's run at the ideal instance, its result named by the shared specification: every weakly fair
  execution terminates, the result buffer holds the specification's convolution of the launch's weights with the
  launch's padded image (with a leading unit axis), and the two arguments are unchanged.
-/
import proofs.«179604_j76373108457968_1_alg».proof.Defs
import proofs.«179604_j76373108457968_1_alg».proof.Proof.Gen.ReferenceIdeal
import proofs.«179604_j76373108457968_1_alg».proof.Proof.TapSum
import proofs.«179604_j76373108457968_1_alg».proof.Proof.RefLine
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

/-- The reference's run at the ideal instance: the result buffer at the specification's convolution of the weights
    with the padded image, with a leading unit axis; the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v128)
        = broadcastInDim S1x16x512x512 ![1, 2, 3] bcast_S16x512x512_S1x16x512x512_1_2_3
            (Cert.TapSum.conv (m ((c.tc : Thread nD τ).loc main_arg0))
              (pad S16x516x516 ![0, 2, 2] ![0, 2, 2] ![0, 0, 0]
                (shapeCast S16x512x512 (m ((c.tc : Thread nD τ).loc main_arg1)) shapeCasts_S16x1x512x512_S16x512x512)
                (sitofp .f32 (constantI S_ 32 0#32)) pads_S16x512x512_S16x516x516_000_220_220 h_S_))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (run_ops m ρ)
  exact ⟨(h c main_v128).trans (after_ops_v128_ideal (launchContents m c)),
    (h c main_arg0).trans (after_ops_arg0 (launchContents m c)),
    (h c main_arg1).trans (after_ops_arg1 (launchContents m c))⟩

end Cert.ReferenceIdeal.Stages

end
-- ==== Proof.lean ====
/-
  Per-pixel 5 x 5 convolution: out[b, h, w] = Σ over the 25 taps n = 5 kw + kh of kernel[b, n, h, w] * img_pad[b, h + kh, w + kw],
  the image zero-padded by two on each side.  The Pallas kernel tiles the rows by 256 and keeps a batch's padded image
  resident; the reference accumulates 25 shifted slices of whole arrays.  Both add the taps in the same order from the
  same zero, so at the extended reals the two results are ONE term of the arguments (Proof/TapSum.lean's `conv`): no
  algebraic law, and the finiteness precondition is never opened.

    frame_Kernel, frame_KernelIdeal   the generated frames of the one pallas_call.
    frame_ReferenceIdeal              the reference's run (Proof/RefRun.lean) with its result dropped.
    preserves_Kernel_KernelIdeal      the idealization rewrote nothing: True.
    algebraic                         the kernel's result array block by block (Proof/KernelTaps.lean: the body's 25 taps
                                      as a fold; KernelPiece.lean: one point's block; KernelBlocks.lean: the 32 blocks cover
                                      the array; KernelRun.lean: @main around the region) and the reference's 132 host
                                      operations read stage by stage (Proof/Ref*.lean) both end at `conv` of the weights
                                      and the padded image, broadcast to a leading unit axis.
-/
import proofs.«179604_j76373108457968_1_alg».proof.Defs
import proofs.«179604_j76373108457968_1_alg».proof.Proof.Gen.Kernel
import proofs.«179604_j76373108457968_1_alg».proof.Proof.Gen.Kernel.Skeleton
import proofs.«179604_j76373108457968_1_alg».proof.Proof.Gen.Kernel.Launch
import proofs.«179604_j76373108457968_1_alg».proof.Proof.Gen.Kernel.Points
import proofs.«179604_j76373108457968_1_alg».proof.Proof.Gen.Kernel.Frame
import proofs.«179604_j76373108457968_1_alg».proof.Proof.Gen.KernelIdeal
import proofs.«179604_j76373108457968_1_alg».proof.Proof.Gen.KernelIdeal.Skeleton
import proofs.«179604_j76373108457968_1_alg».proof.Proof.Gen.KernelIdeal.Launch
import proofs.«179604_j76373108457968_1_alg».proof.Proof.Gen.KernelIdeal.Points
import proofs.«179604_j76373108457968_1_alg».proof.Proof.Gen.KernelIdeal.Frame
import proofs.«179604_j76373108457968_1_alg».proof.Proof.Gen.ReferenceIdeal
import proofs.«179604_j76373108457968_1_alg».proof.Proof.Gen.Pre_finite_inputs
import proofs.«179604_j76373108457968_1_alg».proof.Proof.KernelRun
import proofs.«179604_j76373108457968_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Stages.run m ρ)

/-- From arguments that agree both programs end at the convolution of the weights and the padded image with a leading
    unit axis: the two statements name the same term of the arguments. -/
theorem algebraic : Cert.algebraic_KernelIdeal_ReferenceIdeal := by
  intro m ρ m' ρ' _ hagree
  refine ⟨fun c => Cert.KernelIdeal.Blocks.value m c, Cert.KernelIdeal.Blocks.run m ρ, ?_⟩
  refine (θ_run Cert.ReferenceIdeal.defs _ _).mono (fun _ h c => ⟨(h c).1.trans ?_, (h c).2⟩)
    (Cert.ReferenceIdeal.Stages.run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
